-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x121x40 : Shape := ⟨3, ![8192, 121, 40]⟩
abbrev S8192 : Shape := ⟨1, ![8192]⟩
abbrev S384x40x12 : Shape := ⟨3, ![384, 40, 12]⟩
abbrev S_ : Shape := ⟨0, ![]⟩

class Facts : Prop where
  bcast_S_S8192x121x40 : S_.BroadcastsInDim S8192x121x40 (![] : Fin 0 → Fin S8192x121x40.rank)
  reducesTo_S8192x121x40_S_d0_1_2 : S8192x121x40.ReducesTo [0, 1, 2] S_
  h_S_ : 0 < S_.numel
  bcast_S_S384x40x12 : S_.BroadcastsInDim S384x40x12 (![] : Fin 0 → Fin S384x40x12.rank)
  reducesTo_S384x40x12_S_d0_1_2 : S384x40x12.ReducesTo [0, 1, 2] S_

variable [Facts]

def fn {F : FTy → Type} [FloatOps F] (main_arg0 : FVec F S8192x121x40 .f32) (main_arg1 : IVec S8192 32) (main_arg2 : IVec S384x40x12 32) : IVec S_ 1 :=
  let main_v0 : FVec F S8192x121x40 .f32 := Host.absf main_arg0
  let main_cst : FVec F S_ .f32 := constant S_ .f32 0x7F800000#32
  let main_v1 : FVec F S8192x121x40 .f32 := broadcastInDim S8192x121x40 ![] bcast_S_S8192x121x40 main_cst
  let main_v2 : IVec S8192x121x40 1 := cmpf .olt main_v0 main_v1
  let main_c : IVec S_ 1 := constantI S_ 1 1#1
  let main_v3 : IVec S_ 1 := (fun x v => Host.reduce IntOp.andi x v reducesTo_S8192x121x40_S_d0_1_2 h_S_) main_v2 main_c
  let main_c_0 : IVec S_ 32 := constantI S_ 32 4294967255#32
  let main_v4 : IVec S384x40x12 32 := broadcastInDim S384x40x12 ![] bcast_S_S384x40x12 main_c_0
  let main_v5 : IVec S384x40x12 1 := cmpi .sge main_arg2 main_v4
  let main_c_1 : IVec S_ 32 := constantI S_ 32 40#32
  let main_v6 : IVec S384x40x12 32 := broadcastInDim S384x40x12 ![] bcast_S_S384x40x12 main_c_1
  let main_v7 : IVec S384x40x12 1 := cmpi .sle main_arg2 main_v6
  let main_v8 : IVec S384x40x12 1 := andi main_v5 main_v7
  let main_c_2 : IVec S_ 1 := constantI S_ 1 1#1
  let main_v9 : IVec S_ 1 := (fun x v => Host.reduce IntOp.andi x v reducesTo_S384x40x12_S_d0_1_2 h_S_) main_v8 main_c_2
  let main_v10 : IVec S_ 1 := andi main_v3 main_v9
  main_v10
-- ==== Kernel.lean ====
abbrev S8192x121x40 : Shape := ⟨3, ![8192, 121, 40]⟩
abbrev S8192 : Shape := ⟨1, ![8192]⟩
abbrev S384x40x12 : Shape := ⟨3, ![384, 40, 12]⟩
abbrev S8192x40 : Shape := ⟨2, ![8192, 40]⟩
abbrev S128x121x40 : Shape := ⟨3, ![128, 121, 40]⟩
abbrev S128x40 : Shape := ⟨2, ![128, 40]⟩
abbrev S_ : Shape := ⟨0, ![]⟩
abbrev S8192x41 : Shape := ⟨2, ![8192, 41]⟩
abbrev S8192x1 : Shape := ⟨2, ![8192, 1]⟩
abbrev S8192x40x12 : Shape := ⟨3, ![8192, 40, 12]⟩
abbrev S8192x480 : Shape := ⟨2, ![8192, 480]⟩
abbrev S8192x480x1 : Shape := ⟨3, ![8192, 480, 1]⟩
abbrev S1 : Shape := ⟨1, ![1]⟩
abbrev S1x1x1 : Shape := ⟨3, ![1, 1, 1]⟩
abbrev S64x121x40 : Shape := ⟨3, ![64, 121, 40]⟩
abbrev S64x40 : Shape := ⟨2, ![64, 40]⟩
abbrev S64x1x40 : Shape := ⟨3, ![64, 1, 40]⟩

abbrev nBuf : Space → Nat
  | .hbm => 48
  | .vmem => 10
  | .smem => 0
  | _ => 0

abbrev bufTy : (tb : Table) → Fin (tcTables nBuf tb) → BufTy
  | .hbm, ⟨0, _⟩ => ⟨S8192x121x40, .f32⟩
  | .hbm, ⟨1, _⟩ => ⟨S8192, .i32⟩
  | .hbm, ⟨2, _⟩ => ⟨S384x40x12, .i32⟩
  | .hbm, ⟨3, _⟩ => ⟨S8192x40, .f32⟩
  | .hbm, ⟨4, _⟩ => ⟨S_, .f32⟩
  | .hbm, ⟨5, _⟩ => ⟨S_, .f32⟩
  | .hbm, ⟨6, _⟩ => ⟨S8192x41, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x40x12, .i32⟩
  | .hbm, ⟨16, _⟩ => ⟨S8192x480, .i32⟩
  | .hbm, ⟨17, _⟩ => ⟨S_, .i32⟩
  | .hbm, ⟨18, _⟩ => ⟨S8192x480, .i32⟩
  | .hbm, ⟨19, _⟩ => ⟨S8192x480, .i1⟩
  | .hbm, ⟨20, _⟩ => ⟨S_, .i32⟩
  | .hbm, ⟨21, _⟩ => ⟨S8192x480, .i32⟩
  | .hbm, ⟨22, _⟩ => ⟨S8192x480, .i32⟩
  | .hbm, ⟨23, _⟩ => ⟨S8192x480, .i32⟩
  | .hbm, ⟨24, _⟩ => ⟨S8192x480x1, .i32⟩
  | .hbm, ⟨25, _⟩ => ⟨S1, .i32⟩
  | .hbm, ⟨26, _⟩ => ⟨S_, .i32⟩
  | .hbm, ⟨27, _⟩ => ⟨S8192x480x1, .i32⟩
  | .hbm, ⟨28, _⟩ => ⟨S8192x480x1, .i1⟩
  | .hbm, ⟨29, _⟩ => ⟨S1x1x1, .i32⟩
  | .hbm, ⟨30, _⟩ => ⟨S8192x480x1, .i32⟩
  | .hbm, ⟨31, _⟩ => ⟨S8192x480x1, .i1⟩
  | .hbm, ⟨32, _⟩ => ⟨S8192x480x1, .i1⟩
  | .hbm, ⟨33, _⟩ => ⟨S_, .i1⟩
  | .hbm, ⟨34, _⟩ => ⟨S8192x480, .i1⟩
  | .hbm, ⟨35, _⟩ => ⟨S8192x480, .f32⟩
  | .hbm, ⟨36, _⟩ => ⟨S_, .f32⟩
  | .hbm, ⟨37, _⟩ => ⟨S8192x480, .f32⟩
  | .hbm, ⟨38, _⟩ => ⟨S8192x480, .f32⟩
  | .hbm, ⟨39, _⟩ => ⟨S8192x40x12, .f32⟩
  | .hbm, ⟨40, _⟩ => ⟨S_, .f32⟩
  | .hbm, ⟨41, _⟩ => ⟨S8192x40, .f32⟩
  | .hbm, ⟨42, _⟩ => ⟨S8192x40, .f32⟩
  | .hbm, ⟨43, _⟩ => ⟨S_, .f32⟩
  | .hbm, ⟨44, _⟩ => ⟨S8192x40, .f32⟩
  | .hbm, ⟨45, _⟩ => ⟨S8192x40, .f32⟩
  | .hbm, ⟨46, _⟩ => ⟨S8192x40, .f32⟩
  | .hbm, ⟨47, _⟩ => ⟨S8192x121x40, .f32⟩
  | .local _ .vmem, ⟨0, _⟩ => ⟨S128x121x40, .f32⟩
  | .local _ .vmem, ⟨1, _⟩ => ⟨S128x121x40, .f32⟩
  | .local _ .vmem, ⟨2, _⟩ => ⟨S128x40, .f32⟩
  | .local _ .vmem, ⟨3, _⟩ => ⟨S128x40, .f32⟩
  | .local _ .vmem, ⟨4, _⟩ => ⟨S64x121x40, .f32⟩
  | .local _ .vmem, ⟨5, _⟩ => ⟨S64x121x40, .f32⟩
  | .local _ .vmem, ⟨6, _⟩ => ⟨S64x40, .f32⟩
  | .local _ .vmem, ⟨7, _⟩ => ⟨S64x40, .f32⟩
  | .local _ .vmem, ⟨8, _⟩ => ⟨S64x121x40, .f32⟩
  | .local _ .vmem, ⟨9, _⟩ => ⟨S64x121x40, .f32⟩
  | _, _ => ⟨S8192x121x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x121x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x121x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x121x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x121x40_S128x121x40_0_0_0 : ∀ a, (![0, 0, 0] : Fin 3 → Nat) a + S128x121x40.size a ≤ S128x121x40.size a
  h_S128x121x40 : 0 < S128x121x40.numel
  reduces_S128x121x40_S128x40 : S128x121x40.Reduces [1] S128x40
  inb_S128x40_S128x40_0_0 : ∀ a, (![0, 0] : Fin 2 → Nat) a + S128x40.size a ≤ S128x40.size a
  h_S128x40 : 0 < S128x40.numel
  pads_S8192x40_S8192x41_000_010 : S8192x40.Pads (![0, 0] : Fin 2 → Nat) ![0, 1] ![0, 0] S8192x41
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x40x12_S8192x480 : S8192x40x12.ShapeCasts S8192x480
  bcast_S_S8192x480 : S_.BroadcastsInDim S8192x480 (![] : Fin 0 → Fin S8192x480.rank)
  shapeCasts_S8192x480_S8192x480x1 : S8192x480.ShapeCasts S8192x480x1
  bcast_S_S8192x480x1 : S_.BroadcastsInDim S8192x480x1 (![] : Fin 0 → Fin S8192x480x1.rank)
  bcast_S1_S1x1x1_2 : S1.BroadcastsInDim S1x1x1 (![2] : Fin 1 → Fin S1x1x1.rank)
  bcast_S1x1x1_S8192x480x1_0_1_2 : S1x1x1.BroadcastsInDim S8192x480x1 (![0, 1, 2] : Fin 3 → Fin S8192x480x1.rank)
  reducesTo_S8192x480x1_S8192x480_d2 : S8192x480x1.ReducesTo [2] S8192x480
  shapeCasts_S8192x480_S8192x40x12 : S8192x480.ShapeCasts S8192x40x12
  reducesTo_S8192x40x12_S8192x40_d2 : S8192x40x12.ReducesTo [2] S8192x40
  bcast_S_S8192x40 : S_.BroadcastsInDim S8192x40 (![] : Fin 0 → Fin S8192x40.rank)
  inb_S64x121x40_S64x121x40_0_0_0 : ∀ a, (![0, 0, 0] : Fin 3 → Nat) a + S64x121x40.size a ≤ S64x121x40.size a
  h_S64x121x40 : 0 < S64x121x40.numel
  inb_S64x40_S64x40_0_0 : ∀ a, (![0, 0] : Fin 2 → Nat) a + S64x40.size a ≤ S64x40.size a
  h_S64x40 : 0 < S64x40.numel
  shapeCasts_S64x40_S64x40 : S64x40.ShapeCasts S64x40
  shapeCasts_S64x40_S64x1x40 : S64x40.ShapeCasts S64x1x40
  broadcasts_S64x1x40_S64x121x40 : S64x1x40.Broadcasts S64x121x40
  gather_S384x40x12_S8192x1_S8192x40x12_12_0_n_n_0_1_14012_wf : GatherDims.WF S384x40x12 S8192x1 S8192x40x12 [1, 2] [0] [] [0] [] 1 ![1, 40, 12]
  gather_S8192x41_S8192x480x1_S8192x480_n_1_0_0_1_2_11_wf : GatherDims.WF S8192x41 S8192x480x1 S8192x480 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x121x40.size a ≤ S8192x121x40.size a
  hwx0_0 : ∀ i : grid0.Coords, EltTy.bits .f32 = 32 ∨ (Rect.block (s := S8192x121x40) S128x121x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x40.size a ≤ S8192x40.size a
  hwx0_1 : ∀ i : grid0.Coords, EltTy.bits .f32 = 32 ∨ (Rect.block (s := S8192x40) S128x40.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x121x40.size a ≤ S8192x121x40.size a
  hwx1_0 : ∀ i : grid1.Coords, EltTy.bits .f32 = 32 ∨ (Rect.block (s := S8192x121x40) S64x121x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S8192x40.size a
  hwx1_1 : ∀ i : grid1.Coords, EltTy.bits .f32 = 32 ∨ (Rect.block (s := S8192x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x121x40.size a ≤ S8192x121x40.size a
  hwx1_2 : ∀ i : grid1.Coords, EltTy.bits .f32 = 32 ∨ (Rect.block (s := S8192x121x40) S64x121x40.size (cc1_transform_2 i) (hinb1_2 i)).WholeWords (EltTy.packing .f32)

variable [Facts₀]

def gather_S384x40x12_S8192x1_S8192x40x12_12_0_n_n_0_1_14012 : GatherDims S384x40x12 S8192x1 S8192x40x12 where
  offsetDims := [1, 2]
  collapsedSliceDims := [0]
  operandBatchingDims := []
  startIndicesBatchingDims := []
  startIndexMap := [0]
  indexVectorDim := 1
  sliceSizes := ![1, 40, 12]
  wf := gather_S384x40x12_S8192x1_S8192x40x12_12_0_n_n_0_1_14012_wf
def gather_S8192x41_S8192x480x1_S8192x480_n_1_0_0_1_2_11 : GatherDims S8192x41 S8192x480x1 S8192x480 where
  offsetDims := []
  collapsedSliceDims := [1]
  operandBatchingDims := [0]
  startIndicesBatchingDims := [0]
  startIndexMap := [1]
  indexVectorDim := 2
  sliceSizes := ![1, 1]
  wf := gather_S8192x41_S8192x480x1_S8192x480_n_1_0_0_1_2_11_wf

abbrev win0_0 : Pipeline.Window sig grid0 :=
  Pipeline.Window.ofSpec (Memref.whole main_arg0) S128x121x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x40.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S64x121x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S64x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x121x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x121x40 : Shape := ⟨3, ![8192, 121, 40]⟩
abbrev S8192 : Shape := ⟨1, ![8192]⟩
abbrev S384x40x12 : Shape := ⟨3, ![384, 40, 12]⟩
abbrev S_ : Shape := ⟨0, ![]⟩
abbrev S8192x40 : Shape := ⟨2, ![8192, 40]⟩
abbrev S8192x41 : Shape := ⟨2, ![8192, 41]⟩
abbrev S8192x1 : Shape := ⟨2, ![8192, 1]⟩
abbrev S8192x40x12 : Shape := ⟨3, ![8192, 40, 12]⟩
abbrev S8192x1x1 : Shape := ⟨3, ![8192, 1, 1]⟩
abbrev S8192x40x12x1 : Shape := ⟨4, ![8192, 40, 12, 1]⟩
abbrev S8192x40x12x2 : Shape := ⟨4, ![8192, 40, 12, 2]⟩
abbrev S8192x1x40 : Shape := ⟨3, ![8192, 1, 40]⟩

abbrev nBuf : Space → Nat
  | .hbm => 51
  | .vmem => 0
  | .smem => 0
  | _ => 0

abbrev bufTy : (tb : Table) → Fin (tcTables nBuf tb) → BufTy
  | .hbm, ⟨0, _⟩ => ⟨S8192x121x40, .f32⟩
  | .hbm, ⟨1, _⟩ => ⟨S8192, .i32⟩
  | .hbm, ⟨2, _⟩ => ⟨S384x40x12, .i32⟩
  | .hbm, ⟨3, _⟩ => ⟨S_, .f32⟩
  | .hbm, ⟨4, _⟩ => ⟨S8192x40, .f32⟩
  | .hbm, ⟨5, _⟩ => ⟨S_, .f32⟩
  | .hbm, ⟨6, _⟩ => ⟨S8192x40, .f32⟩
  | .hbm, ⟨7, _⟩ => ⟨S8192x40, .f32⟩
  | .hbm, ⟨8, _⟩ => ⟨S_, .f32⟩
  | .hbm, ⟨9, _⟩ => ⟨S_, .f32⟩
  | .hbm, ⟨10, _⟩ => ⟨S8192x41, .f32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x40x12, .i32⟩
  | .hbm, ⟨20, _⟩ => ⟨S8192, .i32⟩
  | .hbm, ⟨21, _⟩ => ⟨S8192x1x1, .i32⟩
  | .hbm, ⟨22, _⟩ => ⟨S_, .i32⟩
  | .hbm, ⟨23, _⟩ => ⟨S8192x1x1, .i32⟩
  | .hbm, ⟨24, _⟩ => ⟨S8192x1x1, .i1⟩
  | .hbm, ⟨25, _⟩ => ⟨S_, .i32⟩
  | .hbm, ⟨26, _⟩ => ⟨S8192x1x1, .i32⟩
  | .hbm, ⟨27, _⟩ => ⟨S8192x1x1, .i32⟩
  | .hbm, ⟨28, _⟩ => ⟨S8192x1x1, .i32⟩
  | .hbm, ⟨29, _⟩ => ⟨S_, .i32⟩
  | .hbm, ⟨30, _⟩ => ⟨S8192x40x12, .i32⟩
  | .hbm, ⟨31, _⟩ => ⟨S8192x40x12, .i1⟩
  | .hbm, ⟨32, _⟩ => ⟨S_, .i32⟩
  | .hbm, ⟨33, _⟩ => ⟨S8192x40x12, .i32⟩
  | .hbm, ⟨34, _⟩ => ⟨S8192x40x12, .i32⟩
  | .hbm, ⟨35, _⟩ => ⟨S8192x40x12, .i32⟩
  | .hbm, ⟨36, _⟩ => ⟨S8192x40x12, .i32⟩
  | .hbm, ⟨37, _⟩ => ⟨S8192x40x12x1, .i32⟩
  | .hbm, ⟨38, _⟩ => ⟨S8192x40x12x1, .i32⟩
  | .hbm, ⟨39, _⟩ => ⟨S8192x40x12x2, .i32⟩
  | .hbm, ⟨40, _⟩ => ⟨S8192x40x12, .f32⟩
  | .hbm, ⟨41, _⟩ => ⟨S_, .f32⟩
  | .hbm, ⟨42, _⟩ => ⟨S8192x40, .f32⟩
  | .hbm, ⟨43, _⟩ => ⟨S8192x40, .f32⟩
  | .hbm, ⟨44, _⟩ => ⟨S_, .f32⟩
  | .hbm, ⟨45, _⟩ => ⟨S8192x40, .f32⟩
  | .hbm, ⟨46, _⟩ => ⟨S8192x40, .f32⟩
  | .hbm, ⟨47, _⟩ => ⟨S8192x40, .f32⟩
  | .hbm, ⟨48, _⟩ => ⟨S8192x1x40, .f32⟩
  | .hbm, ⟨49, _⟩ => ⟨S8192x121x40, .f32⟩
  | .hbm, ⟨50, _⟩ => ⟨S8192x121x40, .f32⟩
  | _, _ => ⟨S8192x121x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_call0_v0 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S8192x121x40_S8192x40_d1 : S8192x121x40.ReducesTo [1] S8192x40
  h_S_ : 0 < S_.numel
  pads_S8192x40_S8192x41_000_010 : S8192x40.Pads (![0, 0] : Fin 2 → Nat) ![0, 1] ![0, 0] S8192x41
  bcast_S_S8192 : S_.BroadcastsInDim S8192 (![] : Fin 0 → Fin S8192.rank)
  bcast_S8192_S8192x1_0 : S8192.BroadcastsInDim S8192x1 (![0] : Fin 1 → Fin S8192x1.rank)
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S_S8192x40x12 : S_.BroadcastsInDim S8192x40x12 (![] : Fin 0 → Fin S8192x40x12.rank)
  bcast_S8192x1x1_S8192x40x12_0_1_2 : S8192x1x1.BroadcastsInDim S8192x40x12 (![0, 1, 2] : Fin 3 → Fin S8192x40x12.rank)
  bcast_S8192x40x12_S8192x40x12x1_0_1_2 : S8192x40x12.BroadcastsInDim S8192x40x12x1 (![0, 1, 2] : Fin 3 → Fin S8192x40x12x1.rank)
  concatenates_S8192x40x12x1_S8192x40x12x1_S8192x40x12x2_d3 : Shape.Concatenates [S8192x40x12x1, S8192x40x12x1] S8192x40x12x2 3
  reducesTo_S8192x40x12_S8192x40_d2 : S8192x40x12.ReducesTo [2] S8192x40
  bcast_S_S8192x40 : S_.BroadcastsInDim S8192x40 (![] : Fin 0 → Fin S8192x40.rank)
  bcast_S8192x40_S8192x1x40_0_2 : S8192x40.BroadcastsInDim S8192x1x40 (![0, 2] : Fin 2 → Fin S8192x1x40.rank)
  bcast_S8192x1x40_S8192x121x40_0_1_2 : S8192x1x40.BroadcastsInDim S8192x121x40 (![0, 1, 2] : Fin 3 → Fin S8192x121x40.rank)
  gather_S384x40x12_S8192x1_S8192x40x12_12_0_n_n_0_1_14012_wf : GatherDims.WF S384x40x12 S8192x1 S8192x40x12 [1, 2] [0] [] [0] [] 1 ![1, 40, 12]
  gather_S8192x41_S8192x40x12x2_S8192x40x12_n_01_n_n_01_3_11_wf : GatherDims.WF S8192x41 S8192x40x12x2 S8192x40x12 [] [0, 1] [] [0, 1] [] 3 ![1, 1]

variable [Facts₀]

def gather_S384x40x12_S8192x1_S8192x40x12_12_0_n_n_0_1_14012 : GatherDims S384x40x12 S8192x1 S8192x40x12 where
  offsetDims := [1, 2]
  collapsedSliceDims := [0]
  operandBatchingDims := []
  startIndicesBatchingDims := []
  startIndexMap := [0]
  indexVectorDim := 1
  sliceSizes := ![1, 40, 12]
  wf := gather_S384x40x12_S8192x1_S8192x40x12_12_0_n_n_0_1_14012_wf
def gather_S8192x41_S8192x40x12x2_S8192x40x12_n_01_n_n_01_3_11 : GatherDims S8192x41 S8192x40x12x2 S8192x40x12 where
  offsetDims := []
  collapsedSliceDims := [0, 1]
  operandBatchingDims := []
  startIndicesBatchingDims := []
  startIndexMap := [0, 1]
  indexVectorDim := 3
  sliceSizes := ![1, 1]
  wf := gather_S8192x41_S8192x40x12x2_S8192x40x12_n_01_n_n_01_3_11_wf

class Facts : Prop extends Facts₀ where

variable [Facts]
-- ==== Proof.KernelStages.lean ====
/-
  The host operations between the two kernel regions, as pure functions of the arrays they read.

  From the peak-to-peak table `P` ([8192, 40], what the first region leaves), the channel of each waveform `a1`
  ([8192]) and the table of parent channels `a2` ([384, 40, 12]):
  * `padded P` appends a column of +∞ to `P` ([8192, 41]): parent index 40 means "no parent";
  * `parentRows a1 a2` picks, for each waveform, the [40, 12] slab of parent indices of its channel;
  * `flatTake x q` reads row `n` of `x` at the indices `q n ·` ([8192, 480]), a negative index counted from the end
    and an index that is then still outside [0, 40] answered by the NaN pattern;
  * `parentPtps` is that take of the padded table at the parent indices, laid out [8192, 40, 12];
  * `rescale P G` is min (min over the 12 parents of `G` / `P`, 1), and the second result is `P` times it.
  The last boundary's contents at the buffers the second region and the return read are these functions of what the
  first region left.
-/
import proofs.«407962_j59150289600719_2_alg».proof.Proof.Gen.KernelIdeal.Frame
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-- The table with a column of +∞ appended. -/
def padded (P : (⟨S8192x40, .f32⟩ : BufTy).Contents (Elt F)) : (⟨S8192x41, .f32⟩ : BufTy).Contents (Elt F) :=
  pad S8192x41 ![0, 0] ![0, 1] ![0, 0] P (id (constant S_ .f32 0x7F800000#32)) pads_S8192x40_S8192x41_000_010 h_S_

/-- Each waveform's slab of parent indices: the table's row at the waveform's channel (a negative channel counted from the end). -/
def parentRows (a1 : (⟨S8192, .i32⟩ : BufTy).Contents (Elt F)) (a2 : (⟨S384x40x12, .i32⟩ : BufTy).Contents (Elt F)) :
    (⟨S8192x40x12, .i32⟩ : BufTy).Contents (Elt F) :=
  Host.gather gather_S384x40x12_S8192x1_S8192x40x12_12_0_n_n_0_1_14012 a2
    (broadcastInDim S8192x1 ![0] bcast_S8192_S8192x1_0
      (select (cmpi .slt a1 (broadcastInDim S8192 ![] bcast_S_S8192 (constantI S_ 32 0#32)))
        (addi a1 (broadcastInDim S8192 ![] bcast_S_S8192 (constantI S_ 32 384#32))) a1))

/-- The indices of a take along axis 1 of a 41-wide table: a negative one counted from the end, as a column of index vectors. -/
def wrapped (q : (⟨S8192x480, .i32⟩ : BufTy).Contents (Elt F)) : (⟨S8192x480x1, .i32⟩ : BufTy).Contents (Elt F) :=
  shapeCast S8192x480x1
    (select (cmpi .slt q (broadcastInDim S8192x480 ![] bcast_S_S8192x480 (constantI S_ 32 0#32)))
      (addi q (broadcastInDim S8192x480 ![] bcast_S_S8192x480 (constantI S_ 32 41#32))) q)
    shapeCasts_S8192x480_S8192x480x1

/-- Which of those indices lie in [0, 40]. -/
def inRange (w : (⟨S8192x480x1, .i32⟩ : BufTy).Contents (Elt F)) : (⟨S8192x480, .i1⟩ : BufTy).Contents (Elt F) :=
  Host.reduce IntOp.andi
    (andi (cmpi .sge w (broadcastInDim S8192x480x1 ![] bcast_S_S8192x480x1 (constantI S_ 32 0#32)))
      (cmpi .sle w (broadcastInDim S8192x480x1 ![0, 1, 2] bcast_S1x1x1_S8192x480x1_0_1_2
        (broadcastInDim S1x1x1 ![2] bcast_S1_S1x1x1_2 (constantI S1 32 40#32)))))
    (constantI S_ 1 1#1) reducesTo_S8192x480x1_S8192x480_d2 h_S_

/-- Row `n` of `x` at a column `w` of index vectors: the entry where the index is in range, the NaN pattern where it is not. -/
def takeAt (x : (⟨S8192x41, .f32⟩ : BufTy).Contents (Elt F)) (w : (⟨S8192x480x1, .i32⟩ : BufTy).Contents (Elt F)) :
    (⟨S8192x480, .f32⟩ : BufTy).Contents (Elt F) :=
  select (inRange (F := F) w)
    (Host.gather gather_S8192x41_S8192x480x1_S8192x480_n_1_0_0_1_2_11 x w)
    (broadcastInDim S8192x480 ![] bcast_S_S8192x480 (constant S_ .f32 0x7FC00000#32))

/-- The take along axis 1: row `n` of `x` at the indices `q n ·`; the NaN pattern where the index is out of range. -/
def flatTake (x : (⟨S8192x41, .f32⟩ : BufTy).Contents (Elt F)) (q : (⟨S8192x480, .i32⟩ : BufTy).Contents (Elt F)) :
    (⟨S8192x480, .f32⟩ : BufTy).Contents (Elt F) :=
  takeAt x (wrapped (F := F) q)

/-- The padded table taken at each waveform's parent indices, laid out [8192, 40, 12]. -/
def parentPtps (x : (⟨S8192x41, .f32⟩ : BufTy).Contents (Elt F)) (pidx : (⟨S8192x40x12, .i32⟩ : BufTy).Contents (Elt F)) :
    (⟨S8192x40x12, .f32⟩ : BufTy).Contents (Elt F) :=
  shapeCast S8192x40x12 (flatTake x (shapeCast S8192x480 pidx shapeCasts_S8192x40x12_S8192x480)) shapeCasts_S8192x480_S8192x40x12

/-- min (min over the parents of `G` / `P`, 1). -/
def rescale (P : (⟨S8192x40, .f32⟩ : BufTy).Contents (Elt F)) (G : (⟨S8192x40x12, .f32⟩ : BufTy).Contents (Elt F)) :
    (⟨S8192x40, .f32⟩ : BufTy).Contents (Elt F) :=
  minimumf
    (Host.divf (Host.reduce FloatOps.minimumf G (constant S_ .f32 0x7F800000#32) reducesTo_S8192x40x12_S8192x40_d2 h_S_) P)
    (broadcastInDim S8192x40 ![] bcast_S_S8192x40 (constant S_ .f32 0x3F800000#32))

/-- The factor the second region multiplies the waveforms by, from what the first region left and the two index inputs. -/
def factor (P : (⟨S8192x40, .f32⟩ : BufTy).Contents (Elt F)) (a1 : (⟨S8192, .i32⟩ : BufTy).Contents (Elt F))
    (a2 : (⟨S384x40x12, .i32⟩ : BufTy).Contents (Elt F)) : (⟨S8192x40, .f32⟩ : BufTy).Contents (Elt F) :=
  rescale P (parentPtps (padded P) (parentRows (F := F) a1 a2))

end Cert.KernelIdeal.Stages

end
-- ==== Proof.KernelHost.lean ====
/-
  The stretches of host operations between the two kernel regions compute the stage functions of Proof/KernelStages.lean:
  each stretch is read, from ANY contents `v` of the buffers, at the one buffer the next stretch (or the second
  region, or the return) takes from it, and the buffers a stretch does not write keep their contents.
-/
import proofs.«407962_j59150289600719_2_alg».proof.Proof.KernelStages

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-! ## The stretches, one at a time, from any contents `v` -/

section Stretches
variable (v : Valuation τ sig (Elt F))

/-- The +∞ constant and the pad. -/
theorem pad_stretch : StableHlo.after hostOps1_1 (StableHlo.after hostOps1 v) (Proc.devRef .tc main_v1)
    = padded (v (Proc.devRef .tc main_v0)) := by
  simp only [hostOps1, hostOps1_1]
  after_results_simp
  rfl

/-- The slab of parent indices, flattened to 480 per waveform. -/
theorem rows_stretch : StableHlo.after hostOps1_2 v (Proc.devRef .tc main_v9)
    = shapeCast S8192x480 (parentRows (v (Proc.devRef .tc main_arg1)) (v (Proc.devRef .tc main_arg2))) shapeCasts_S8192x40x12_S8192x480 := by
  simp only [hostOps1_2]
  after_results_simp
  rfl

/-! The take along axis 1 is read in three steps, so that the column of wrapped indices, which the range test reads
    twice and the gather once, and then the three arrays the final select reads, each stand as one array in the step
    that reads them. -/

/-- The take's first eight operations: they make the column of wrapped indices. -/
abbrev takeHead : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8192x480, .i32⟩) (broadcastInDim S8192x480 ![] bcast_S_S8192x480),
    StableHlo.TRef.binary (.of main_v9 : StableHlo.TRef sig ⟨S8192x480, .i32⟩) (.of main_call1_v0 : StableHlo.TRef sig ⟨S8192x480, .i32⟩) (.of main_call1_v1 : StableHlo.TRef sig ⟨S8192x480, .i1⟩) (cmpi .slt),
    StableHlo.TRef.nullary (.of main_call1_c_0 : StableHlo.TRef sig ⟨S_, .i32⟩) (constantI S_ 32 41#32),
    StableHlo.TRef.unary (.of main_call1_c_0 : StableHlo.TRef sig ⟨S_, .i32⟩) (.of main_call1_v2 : StableHlo.TRef sig ⟨S8192x480, .i32⟩) (broadcastInDim S8192x480 ![] bcast_S_S8192x480),
    StableHlo.TRef.binary (.of main_v9 : StableHlo.TRef sig ⟨S8192x480, .i32⟩) (.of main_call1_v2 : StableHlo.TRef sig ⟨S8192x480, .i32⟩) (.of main_call1_v3 : StableHlo.TRef sig ⟨S8192x480, .i32⟩) addi,
    StableHlo.TRef.ternary (.of main_call1_v1 : StableHlo.TRef sig ⟨S8192x480, .i1⟩) (.of main_call1_v3 : StableHlo.TRef sig ⟨S8192x480, .i32⟩) (.of main_v9 : StableHlo.TRef sig ⟨S8192x480, .i32⟩) (.of main_call1_v4 : StableHlo.TRef sig ⟨S8192x480, .i32⟩) select,
    StableHlo.TRef.reshape (.of main_call1_v4 : StableHlo.TRef sig ⟨S8192x480, .i32⟩) (.of main_call1_v5 : StableHlo.TRef sig ⟨S8192x480x1, .i32⟩) rfl shapeCasts_S8192x480_S8192x480x1 ]
/-- The next thirteen: the range test, the gather, the NaN array. -/
abbrev takeMid : List (HloOp τ sig (Elt F)) :=
  [ StableHlo.TRef.nullary (.of main_call1_c_1 : StableHlo.TRef sig ⟨S1, .i32⟩) (constantI S1 32 40#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8192x480x1, .i32⟩) (broadcastInDim S8192x480x1 ![] bcast_S_S8192x480x1),
    StableHlo.TRef.binary (.of main_call1_v5 : StableHlo.TRef sig ⟨S8192x480x1, .i32⟩) (.of main_call1_v6 : StableHlo.TRef sig ⟨S8192x480x1, .i32⟩) (.of main_call1_v7 : StableHlo.TRef sig ⟨S8192x480x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8192x480x1, .i32⟩) (broadcastInDim S8192x480x1 ![0, 1, 2] bcast_S1x1x1_S8192x480x1_0_1_2),
    StableHlo.TRef.binary (.of main_call1_v5 : StableHlo.TRef sig ⟨S8192x480x1, .i32⟩) (.of main_call1_v9 : StableHlo.TRef sig ⟨S8192x480x1, .i32⟩) (.of main_call1_v10 : StableHlo.TRef sig ⟨S8192x480x1, .i1⟩) (cmpi .sle),
    StableHlo.TRef.binary (.of main_call1_v7 : StableHlo.TRef sig ⟨S8192x480x1, .i1⟩) (.of main_call1_v10 : StableHlo.TRef sig ⟨S8192x480x1, .i1⟩) (.of main_call1_v11 : StableHlo.TRef sig ⟨S8192x480x1, .i1⟩) andi,
    StableHlo.TRef.nullary (.of main_call1_c_3 : StableHlo.TRef sig ⟨S_, .i1⟩) (constantI S_ 1 1#1),
    StableHlo.TRef.binary (.of main_call1_v11 : StableHlo.TRef sig ⟨S8192x480x1, .i1⟩) (.of main_call1_c_3 : StableHlo.TRef sig ⟨S_, .i1⟩) (.of main_call1_v12 : StableHlo.TRef sig ⟨S8192x480, .i1⟩) (fun x v => Host.reduce IntOp.andi x v reducesTo_S8192x480x1_S8192x480_d2 h_S_),
    StableHlo.TRef.binary (.of main_v1 : StableHlo.TRef sig ⟨S8192x41, .f32⟩) (.of main_call1_v5 : StableHlo.TRef sig ⟨S8192x480x1, .i32⟩) (.of main_call1_v13 : StableHlo.TRef sig ⟨S8192x480, .f32⟩) (fun x i => Host.gather gather_S8192x41_S8192x480x1_S8192x480_n_1_0_0_1_2_11 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8192x480, .f32⟩) (broadcastInDim S8192x480 ![] bcast_S_S8192x480) ]
/-- The last: the select. -/
abbrev takeLast : List (HloOp τ sig (Elt F)) :=
  [ StableHlo.TRef.ternary (.of main_call1_v12 : StableHlo.TRef sig ⟨S8192x480, .i1⟩) (.of main_call1_v13 : StableHlo.TRef sig ⟨S8192x480, .f32⟩) (.of main_call1_v14 : StableHlo.TRef sig ⟨S8192x480, .f32⟩) (.of main_v10 : StableHlo.TRef sig ⟨S8192x480, .f32⟩) select ]

theorem take_split : StableHlo.after hostOps1_3 v
    = StableHlo.after takeLast (StableHlo.after takeMid (StableHlo.after takeHead v)) := rfl

theorem takeHead_column : StableHlo.after takeHead v (Proc.devRef .tc main_call1_v5) = wrapped (F := F) (v (Proc.devRef .tc main_v9)) := by
  simp only [takeHead]
  after_results_simp
  rfl

theorem takeHead_keeps_v1 : StableHlo.after takeHead v (Proc.devRef .tc main_v1) = v (Proc.devRef .tc main_v1) := by
  simp only [takeHead]
  after_results_simp

theorem takeMid_mask : StableHlo.after takeMid v (Proc.devRef .tc main_call1_v12) = inRange (F := F) (v (Proc.devRef .tc main_call1_v5)) := by
  simp only [takeMid]
  after_results_simp
  unfold inRange
  generalize v (Proc.devRef .tc main_call1_v5) = W
  simp only [TRef.toBuf, TRef.ofBuf, cast_eq]

theorem takeMid_gather : StableHlo.after takeMid v (Proc.devRef .tc main_call1_v13)
    = (Host.gather gather_S8192x41_S8192x480x1_S8192x480_n_1_0_0_1_2_11 (v (Proc.devRef .tc main_v1)) (v (Proc.devRef .tc main_call1_v5))
        : (⟨S8192x480, .f32⟩ : BufTy).Contents (Elt F)) := by
  simp only [takeMid]
  after_results_simp
  rfl

theorem takeMid_nan : StableHlo.after takeMid v (Proc.devRef .tc main_call1_v14)
    = (broadcastInDim S8192x480 ![] bcast_S_S8192x480 (constant S_ .f32 0x7FC00000#32) : (⟨S8192x480, .f32⟩ : BufTy).Contents (Elt F)) := by
  simp only [takeMid]
  after_results_simp
  rfl

theorem takeLast_result : StableHlo.after takeLast v (Proc.devRef .tc main_v10)
    = (select (v (Proc.devRef .tc main_call1_v12)) (v (Proc.devRef .tc main_call1_v13)) (v (Proc.devRef .tc main_call1_v14))
        : (⟨S8192x480, .f32⟩ : BufTy).Contents (Elt F)) := by
  simp only [takeLast]
  after_results_simp
  rfl

/-- The take along axis 1. -/
theorem take_stretch : StableHlo.after hostOps1_3 v (Proc.devRef .tc main_v10)
    = flatTake (v (Proc.devRef .tc main_v1)) (v (Proc.devRef .tc main_v9)) := by
  rw [take_split]
  refine (takeLast_result (StableHlo.after takeMid (StableHlo.after takeHead v))).trans ?_
  rw [takeMid_mask, takeMid_gather, takeMid_nan, takeHead_column, takeHead_keeps_v1]
  rfl

/-- The minimum over the parents, the quotient, the cap at 1. -/
theorem factor_stretch : StableHlo.after hostOps1_4 v (Proc.devRef .tc main_v15)
    = rescale (v (Proc.devRef .tc main_v0)) (shapeCast S8192x40x12 (v (Proc.devRef .tc main_v10)) shapeCasts_S8192x480_S8192x40x12) := by
  simp only [hostOps1_4]
  after_results_simp
  rfl

/-- and the second result, the table times that factor. -/
theorem product_stretch : StableHlo.after hostOps1_4 v (Proc.devRef .tc main_v16)
    = mulf (v (Proc.devRef .tc main_v0))
        (rescale (v (Proc.devRef .tc main_v0)) (shapeCast S8192x40x12 (v (Proc.devRef .tc main_v10)) shapeCasts_S8192x480_S8192x40x12)) := by
  simp only [hostOps1_4]
  after_results_simp
  rfl

/-! Buffers a stretch does not write keep their contents. -/

theorem pad_keeps_v0 : StableHlo.after hostOps1_1 (StableHlo.after hostOps1 v) (Proc.devRef .tc main_v0) = v (Proc.devRef .tc main_v0) := by
  simp only [hostOps1, hostOps1_1]
  after_results_simp
theorem pad_keeps_arg1 : StableHlo.after hostOps1_1 (StableHlo.after hostOps1 v) (Proc.devRef .tc main_arg1) = v (Proc.devRef .tc main_arg1) := by
  simp only [hostOps1, hostOps1_1]
  after_results_simp
theorem pad_keeps_arg2 : StableHlo.after hostOps1_1 (StableHlo.after hostOps1 v) (Proc.devRef .tc main_arg2) = v (Proc.devRef .tc main_arg2) := by
  simp only [hostOps1, hostOps1_1]
  after_results_simp
theorem rows_keeps_v0 : StableHlo.after hostOps1_2 v (Proc.devRef .tc main_v0) = v (Proc.devRef .tc main_v0) := by
  simp only [hostOps1_2]
  after_results_simp
theorem rows_keeps_v1 : StableHlo.after hostOps1_2 v (Proc.devRef .tc main_v1) = v (Proc.devRef .tc main_v1) := by
  simp only [hostOps1_2]
  after_results_simp
theorem take_keeps_v0 : StableHlo.after hostOps1_3 v (Proc.devRef .tc main_v0) = v (Proc.devRef .tc main_v0) := by
  simp only [hostOps1_3]
  after_results_simp

end Stretches

end Cert.KernelIdeal.Stages

end
-- ==== Proof.KernelEntry.lean ====
/-
  The second kernel region's entry contents at the buffers it and the return read, as the host functions of
  Proof/KernelHost.lean of what the first region left: the stretches of host operations composed, each read from the
  contents the stretch before it leaves, the buffers a stretch does not write carried across.
-/
import proofs.«407962_j59150289600719_2_alg».proof.Proof.KernelHost

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- The table reaches the last stretch as the first region left it. -/
theorem W5_v0 (c : Dev nD) : W5 m ρ c (Proc.devRef .tc main_v0) = W1 m ρ c (Proc.devRef .tc main_v0) :=
  (take_keeps_v0 (W4 m ρ c)).trans ((rows_keeps_v0 (W3 m ρ c)).trans (pad_keeps_v0 (W1 m ρ c)))

/-- What the take left, from the first region's exit contents. -/
theorem W5_v10 (c : Dev nD) : W5 m ρ c (Proc.devRef .tc main_v10)
    = flatTake (padded (W1 m ρ c (Proc.devRef .tc main_v0)))
        (shapeCast S8192x480 (parentRows (W1 m ρ c (Proc.devRef .tc main_arg1)) (W1 m ρ c (Proc.devRef .tc main_arg2))) shapeCasts_S8192x40x12_S8192x480) := by
  have h1 : W4 m ρ c (Proc.devRef .tc main_v1) = padded (W1 m ρ c (Proc.devRef .tc main_v0)) :=
    (rows_keeps_v1 (W3 m ρ c)).trans (pad_stretch (W1 m ρ c))
  have h9 : W4 m ρ c (Proc.devRef .tc main_v9)
      = shapeCast S8192x480 (parentRows (W1 m ρ c (Proc.devRef .tc main_arg1)) (W1 m ρ c (Proc.devRef .tc main_arg2))) shapeCasts_S8192x40x12_S8192x480 := by
    refine (rows_stretch (W3 m ρ c)).trans ?_
    rw [show W3 m ρ c (Proc.devRef .tc main_arg1) = W1 m ρ c (Proc.devRef .tc main_arg1) from pad_keeps_arg1 (W1 m ρ c),
      show W3 m ρ c (Proc.devRef .tc main_arg2) = W1 m ρ c (Proc.devRef .tc main_arg2) from pad_keeps_arg2 (W1 m ρ c)]
  refine (take_stretch (W4 m ρ c)).trans ?_
  rw [h1, h9]

/-- At the second region's entry the factor's buffer holds `factor` of the first region's exit contents, -/
theorem entry_v15 (c : Dev nD) :
    W6 m ρ c (Proc.devRef .tc main_v15)
      = factor (W1 m ρ c (Proc.devRef .tc main_v0)) (W1 m ρ c (Proc.devRef .tc main_arg1)) (W1 m ρ c (Proc.devRef .tc main_arg2)) := by
  refine (factor_stretch (W5 m ρ c)).trans ?_
  rw [W5_v0, W5_v10]
  rfl

/-- and the second result's buffer the table times it. -/
theorem entry_v16 (c : Dev nD) :
    W6 m ρ c (Proc.devRef .tc main_v16)
      = mulf (W1 m ρ c (Proc.devRef .tc main_v0))
          (factor (W1 m ρ c (Proc.devRef .tc main_v0)) (W1 m ρ c (Proc.devRef .tc main_arg1)) (W1 m ρ c (Proc.devRef .tc main_arg2))) := by
  refine (product_stretch (W5 m ρ c)).trans ?_
  rw [W5_v0, W5_v10]
  rfl

end Cert.KernelIdeal.Stages

end
-- ==== Proof.MulValue.lean ====
/-
  What the second kernel region leaves in its output array: the waveforms times the per-(waveform, channel) factor,
  out[n, k, q] = w[n, k, q] · r[n, q]. Grid point t handles waveforms 64 t … 64 t + 63: it multiplies its
  [64, 121, 40] block of w by its [64, 40] block of r laid along the time axis, and the 128 blocks tile the array.
-/
import proofs.«407962_j59150289600719_2_alg».proof.Proof.Gen.KernelIdeal.Frame
import Idealize.ShloMosaic.Lib.Pipeline.Value
import Idealize.ShloMosaic.Lib.ValueIdx

set_option maxRecDepth 16384

noncomputable section

namespace Cert.KernelIdeal.MulValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The product of two extended reals, as the f32 field's multiplication reads at the ideal values. -/
local notation "mulE" => FloatOps.mulf (F := Ideal) (φ := FTy.f32)

/-- The (waveform, channel) pair of a (waveform, time, channel) index of the whole array, -/
abbrev rowChan (i : S8192x121x40.Idx) : S8192x40.Idx := fun a => match a with
  | ⟨0, _⟩ => ⟨(i 0).val, (i 0).isLt⟩
  | ⟨1, _⟩ => ⟨(i 2).val, (i 2).isLt⟩
/-- and of an index inside a block. -/
abbrev blockRowChan (j : S64x121x40.Idx) : S64x40.Idx := fun a => match a with
  | ⟨0, _⟩ => ⟨(j 0).val, (j 0).isLt⟩
  | ⟨1, _⟩ => ⟨(j 2).val, (j 2).isLt⟩

/-- The product w[n, k, q] · r[n, q]. -/
def scaled (w : S8192x121x40.Idx → Elt Ideal .f32) (r : S8192x40.Idx → Elt Ideal .f32) : S8192x121x40.Idx → Elt Ideal .f32 :=
  fun i => mulE (w i) (r (rowChan i))

/-! ## The body's product at an index of its block -/

/-- At (p, k, q) the body's value is x0[p, k, q] · x1[p, q]: the [64, 40] block gains a unit time axis and is
    repeated along it. -/
theorem pay_ix (x0 : Vec Ideal S64x121x40 .f32) (x1 : Vec Ideal S64x40 .f32) (p : Fin 64) (k : Fin 121) (q : Fin 40) :
    k1_pay1 x0 x1 (ix3 p k q) = mulE (x0 (ix3 p k q)) (x1 (ix2 p q)) := by
  unfold k1_pay1
  show mulE (x0 (ix3 p k q)) _ = mulE (x0 (ix3 p k q)) (x1 (ix2 p q))
  refine congrArg (mulE (x0 (ix3 p k q))) ?_
  rw [shapeCast_self]
  refine (broadcastTo_apply _ _ (ix3 p k q) (ix3 p (0 : Fin 1) q) ?_).trans ?_
  · intro a
    match a with
    | ⟨0, _⟩ => show p.val = if (64 : Nat) = 1 then 0 else p.val; rw [if_neg (by decide)]
    | ⟨1, _⟩ => show 0 = if (1 : Nat) = 1 then 0 else k.val; rw [if_pos rfl]
    | ⟨2, _⟩ => show q.val = if (40 : Nat) = 1 then 0 else q.val; rw [if_neg (by decide)]
  · exact shapeCast_apply x1 _ (ix3 p (0 : Fin 1) q) (ix2 p q) (by
      rw [Shape.rowMajor_val_two, Shape.rowMajor_val_three]
      show p.val * 40 + q.val = (p.val * 1 + 0) * 40 + q.val
      omega)

/-- The same at any index of the block. -/
theorem pay_apply (x0 : Vec Ideal S64x121x40 .f32) (x1 : Vec Ideal S64x40 .f32) (j : S64x121x40.Idx) :
    k1_pay1 x0 x1 j = mulE (x0 j) (x1 (blockRowChan j)) := by
  obtain ⟨p, k, q, rfl⟩ : ∃ (p : Fin 64) (k : Fin 121) (q : Fin 40), j = ix3 p k q := ⟨j 0, j 1, j 2, eq_ix3 j⟩
  refine (pay_ix x0 x1 p k q).trans (congrArg (fun y => mulE (x0 (ix3 p k q)) (x1 y)) ?_)
  funext a
  match a with
  | ⟨0, _⟩ => rfl
  | ⟨1, _⟩ => rfl

/-! ## From blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: point t's three blocks are block t along the waveform axis and block 0 along
    the others. -/
theorem index_facts : ∀ t : Fin cfg1.N,
    win1_2.index t (0 : Fin 3) = t.val ∧ win1_2.index t (1 : Fin 3) = 0 ∧ win1_2.index t (2 : Fin 3) = 0
    ∧ win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, _)

variable (V : (c : Dev nD) → (b : Ref sig .tc) → Buf (Elt Ideal) ((c : Thread nD τ).loc b))

/-- What point t writes back is block t of the product of the arrays as the region finds them. -/
theorem flushed_eq (c : Dev nD) (t : Fin cfg1.N) :
    (dat1 (F := Ideal) V c).flushed 2 t
      = ((cfg1.win 2).blk t).view.read (Elt Ideal) (scaled (V c main_arg0) (V c main_v15)) := by
  show (cfg1.win 2).cut (grid1.coords t) ((dat1 (F := Ideal) V c).after 2 t) = _
  rw [after1_2]
  unfold out1_2
  rw [View.canon_unit_zero zero3]
  simp only [View.ld_unit_zero (S := S64x121x40) zero3, View.ld_unit_zero (S := S64x40) zero2]
  obtain ⟨e20, e21, e22, e00, e01, e02, e10, e11⟩ := index_facts t
  funext j
  show k1_pay1 (iblk1 V c 0 t) (iblk1 V c 1 t) j = scaled (V c main_arg0) (V c main_v15) (((cfg1.win 2).blk t).view.emb j)
  refine (pay_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 3) * 64 + 1 * (j 0).val = win1_2.index t (0 : Fin 3) * 64 + 1 * (j 0).val; omega
    | ⟨1, _⟩ => show win1_0.index t (1 : Fin 3) * 121 + 1 * (j 1).val = win1_2.index t (1 : Fin 3) * 121 + 1 * (j 1).val; omega
    | ⟨2, _⟩ => show win1_0.index t (2 : Fin 3) * 40 + 1 * (j 2).val = win1_2.index t (2 : Fin 3) * 40 + 1 * (j 2).val; omega
  have h1 : ((cfg1.win 1).blk t).view.emb (blockRowChan j) = rowChan (((cfg1.win 2).blk t).view.emb j) := by
    funext a; apply Fin.ext
    match a with
    | ⟨0, _⟩ => show win1_1.index t (0 : Fin 2) * 64 + 1 * (j 0).val = win1_2.index t (0 : Fin 3) * 64 + 1 * (j 0).val; omega
    | ⟨1, _⟩ => show win1_1.index t (1 : Fin 2) * 40 + 1 * (j 2).val = win1_2.index t (2 : Fin 3) * 40 + 1 * (j 2).val; omega
  show mulE (V c main_arg0 (((cfg1.win 0).blk t).view.emb j)) (V c main_v15 (((cfg1.win 1).blk t).view.emb (blockRowChan j)))
    = mulE (V c main_arg0 (((cfg1.win 2).blk t).view.emb j)) (V c main_v15 (rowChan (((cfg1.win 2).blk t).view.emb j)))
  rw [h0, h1]

/-- An index of the array is in point t's block iff each coordinate is in the block's range on its axis. -/
theorem mem_blk (t : Fin cfg1.N) (i : S8192x121x40.Idx) :
    i ∈ ((cfg1.win 2).blk t).view.set ↔ ∀ a : Fin 3, win1_2.index t a * S64x121x40.size a ≤ (i a).val
      ∧ (i a).val < win1_2.index t a * S64x121x40.size a + S64x121x40.size a := by
  show i ∈ ((View.whole main_v17).slice (win1_2.rect t)).set ↔ _
  rw [View.set_slice_whole, Rect.mem_set_unit]
  exact Iff.rfl

/-- Every index is in the block of the point its waveform number divided by 64 names. -/
theorem covered (i : S8192x121x40.Idx) :
    ∃ t : Fin cfg1.N, (cfg1.win 2).flush t = true ∧ i ∈ ((cfg1.win 2).blk t).view.set := by
  have hi0 : (i 0).val < 8192 := (i 0).isLt
  have hi1 : (i 1).val < 121 := (i 1).isLt
  have hi2 : (i 2).val < 40 := (i 2).isLt
  have hN : (i 0).val / 64 < cfg1.N := by show _ < grid1.N; rw [N_1]; omega
  obtain ⟨e20, e21, e22, -⟩ := index_facts ⟨(i 0).val / 64, hN⟩
  have q0 : win1_2.index ⟨(i 0).val / 64, hN⟩ (0 : Fin 3) = (i 0).val / 64 := e20
  refine ⟨⟨(i 0).val / 64, hN⟩, flush1_2 _, ?_⟩
  rw [mem_blk]
  intro a
  match a with
  | ⟨0, _⟩ => show win1_2.index ⟨(i 0).val / 64, hN⟩ (0 : Fin 3) * 64 ≤ (i 0).val ∧ (i 0).val < win1_2.index ⟨(i 0).val / 64, hN⟩ (0 : Fin 3) * 64 + 64; omega
  | ⟨1, _⟩ => show win1_2.index ⟨(i 0).val / 64, hN⟩ (1 : Fin 3) * 121 ≤ (i 1).val ∧ (i 1).val < win1_2.index ⟨(i 0).val / 64, hN⟩ (1 : Fin 3) * 121 + 121; omega
  | ⟨2, _⟩ => show win1_2.index ⟨(i 0).val / 64, hN⟩ (2 : Fin 3) * 40 ≤ (i 2).val ∧ (i 2).val < win1_2.index ⟨(i 0).val / 64, hN⟩ (2 : Fin 3) * 40 + 40; omega

/-- After the second region's 128 points its output array holds the product of the waveform array and the factor array as
    the region was entered with them. -/
theorem mul_array (c : Dev nD) :
    (dat1 (F := Ideal) V c).arrAt 2 cfg1.N = scaled (V c main_arg0) (V c main_v15) :=
  (dat1 (F := Ideal) V c).arrAt_eq_of_cover 2 (scaled (V c main_arg0) (V c main_v15)) (fun t _ => flushed_eq V c t) covered

end Cert.KernelIdeal.MulValue

end
-- ==== Proof.PtpValue.lean ====
/-
  What the first kernel region leaves in its output array: each row's peak-to-peak over the time axis,
  max over t of w[n, t, j] minus min over t of w[n, t, j], the same function of the waveforms the host computes
  with its two reductions over axis 1.
-/
import proofs.«407962_j59150289600719_2_alg».proof.Proof.Gen.KernelIdeal.Frame
import proofs.«407962_j59150289600719_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.PtpValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- A maximum taken over one axis, read at the ideal values at a reduced index: the fold of the maximum, from the
    accumulator's value, over that axis's coordinates of the source. -/
theorem mr_max_single {φ : FTy} {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Finset.univ : Finset (Fin (s.size a))).fold (FloatOps.maximumf (F := Ideal) (φ := φ)) (FloatOps.ofBits φ acc) (src ∘ h.lift j) := by
  rw [multiReduction_maximumf_eq_fold]; exact h.fold_filter_drop_single _ _ src j

/-- The same for a minimum. -/
theorem mr_min_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold (FloatOps.minimumf (F := Ideal) (φ := φ)) (FloatOps.ofBits φ acc) (src ∘ h.lift j) := by
  rw [multiReduction_minimumf_eq_fold]; exact h.fold_filter_drop_single _ _ src j

/-- The reference's waveform shape loses its time axis to its per-row shape. -/
theorem redR : Cert.ReferenceIdeal.S8192x121x40.Reduces [1] Cert.ReferenceIdeal.S8192x40 := by decide

/-! ## The block's payload at an index: a maximum minus a minimum over the 121 time steps -/

theorem pay_max (x0 : Vec Ideal S128x121x40 .f32) (j : S128x40.Idx) :
    multiReduction (F := Ideal) .maximumf [1] S128x40 x0 0xFF800000#32 reduces_S128x121x40_S128x40 (.inl rfl) rfl j
      = (Finset.univ : Finset (Fin 121)).fold (FloatOps.maximumf (F := Ideal) (φ := .f32)) (FloatOps.ofBits .f32 0xFF800000#32)
          (fun k : Fin 121 => x0 (reduces_S128x121x40_S128x40.lift j k)) :=
  mr_max_single x0 _ reduces_S128x121x40_S128x40 _ _ j

theorem pay_min (x0 : Vec Ideal S128x121x40 .f32) (j : S128x40.Idx) :
    multiReduction (F := Ideal) .minimumf [1] S128x40 x0 0x7F800000#32 reduces_S128x121x40_S128x40 (.inl rfl) rfl j
      = (Finset.univ : Finset (Fin 121)).fold (FloatOps.minimumf (F := Ideal) (φ := .f32)) (FloatOps.ofBits .f32 0x7F800000#32)
          (fun k : Fin 121 => x0 (reduces_S128x121x40_S128x40.lift j k)) :=
  mr_min_single x0 _ reduces_S128x121x40_S128x40 _ _ j

theorem pay_apply (x0 : Vec Ideal S128x121x40 .f32) (j : S128x40.Idx) :
    k0_pay1 (F := Ideal) x0 j
      = (fun f : Fin 121 → Elt Ideal .f32 => FloatOps.subf (F := Ideal) (φ := .f32)
          ((Finset.univ : Finset (Fin 121)).fold (FloatOps.maximumf (F := Ideal) (φ := .f32)) (FloatOps.ofBits .f32 0xFF800000#32) f)
          ((Finset.univ : Finset (Fin 121)).fold (FloatOps.minimumf (F := Ideal) (φ := .f32)) (FloatOps.ofBits .f32 0x7F800000#32) f))
        (fun k : Fin 121 => x0 (reduces_S128x121x40_S128x40.lift j k)) :=
  congrArg₂ (FloatOps.subf (F := Ideal) (φ := .f32)) (pay_max x0 j) (pay_min x0 j)

/-! ## The reference's stage at an index: the same two folds over the time axis of the whole array -/

theorem ref_max (x : Cert.ReferenceIdeal.S8192x121x40.Idx → Elt Ideal .f32) (i : Cert.ReferenceIdeal.S8192x40.Idx) :
    Cert.ReferenceIdeal.Read.val_main_v0 (F := Ideal) x i
      = (Finset.univ : Finset (Fin 121)).fold (FloatOps.maximumf (F := Ideal) (φ := .f32)) (FloatOps.ofBits .f32 0xFF800000#32)
          (fun k : Fin 121 => x (redR.lift i k)) :=
  Host.reduce_eq_fold_single (FloatOps.maximumf (F := Ideal) (φ := .f32)) x (Cert.ReferenceIdeal.Read.val_main_cst (F := Ideal))
    Cert.ReferenceIdeal.Gen.reducesTo_S8192x121x40_S8192x40_d1 redR Cert.ReferenceIdeal.Gen.h_S_ i

theorem ref_min (x : Cert.ReferenceIdeal.S8192x121x40.Idx → Elt Ideal .f32) (i : Cert.ReferenceIdeal.S8192x40.Idx) :
    Cert.ReferenceIdeal.Read.val_main_v1 (F := Ideal) x i
      = (Finset.univ : Finset (Fin 121)).fold (FloatOps.minimumf (F := Ideal) (φ := .f32)) (FloatOps.ofBits .f32 0x7F800000#32)
          (fun k : Fin 121 => x (redR.lift i k)) :=
  Host.reduce_eq_fold_single (FloatOps.minimumf (F := Ideal) (φ := .f32)) x (Cert.ReferenceIdeal.Read.val_main_cst_0 (F := Ideal))
    Cert.ReferenceIdeal.Gen.reducesTo_S8192x121x40_S8192x40_d1 redR Cert.ReferenceIdeal.Gen.h_S_ i

theorem ref_apply (x : Cert.ReferenceIdeal.S8192x121x40.Idx → Elt Ideal .f32) (i : Cert.ReferenceIdeal.S8192x40.Idx) :
    Cert.ReferenceIdeal.Read.val_main_v2 (F := Ideal) x i
      = (fun f : Fin 121 → Elt Ideal .f32 => FloatOps.subf (F := Ideal) (φ := .f32)
          ((Finset.univ : Finset (Fin 121)).fold (FloatOps.maximumf (F := Ideal) (φ := .f32)) (FloatOps.ofBits .f32 0xFF800000#32) f)
          ((Finset.univ : Finset (Fin 121)).fold (FloatOps.minimumf (F := Ideal) (φ := .f32)) (FloatOps.ofBits .f32 0x7F800000#32) f))
        (fun k : Fin 121 => x (redR.lift i k)) :=
  (Cert.ReferenceIdeal.Read.val_main_v2_apply (F := Ideal) x i).trans
    (congrArg₂ (FloatOps.subf (F := Ideal) (φ := .f32)) (ref_max x i) (ref_min x i))

/-! ## One point of a block against one point of the array -/

/-- If a block, along the time axis over its index `j`, holds what the array holds along the time axis over its index `i`,
    the block's payload at `j` is the reference's stage at `i`. -/
theorem point_eq (x : Cert.ReferenceIdeal.S8192x121x40.Idx → Elt Ideal .f32) (x0 : Vec Ideal S128x121x40 .f32)
    (i : Cert.ReferenceIdeal.S8192x40.Idx) (j : S128x40.Idx)
    (hb : ∀ k : Fin 121, x0 (reduces_S128x121x40_S128x40.lift j k) = x (redR.lift i k)) :
    k0_pay1 (F := Ideal) x0 j = Cert.ReferenceIdeal.Read.val_main_v2 (F := Ideal) x i :=
  (pay_apply x0 j).trans
    ((congrArg (fun f : Fin 121 → Elt Ideal .f32 => FloatOps.subf (F := Ideal) (φ := .f32)
          ((Finset.univ : Finset (Fin 121)).fold (FloatOps.maximumf (F := Ideal) (φ := .f32)) (FloatOps.ofBits .f32 0xFF800000#32) f)
          ((Finset.univ : Finset (Fin 121)).fold (FloatOps.minimumf (F := Ideal) (φ := .f32)) (FloatOps.ofBits .f32 0x7F800000#32) f))
        (funext hb)).trans (ref_apply x i).symm)

/-! ## Where a block's element sits in its array -/

/-- An element of the waveform block at point `t` sits in the array, on each axis, at the block index times the block's
    extent plus its own coordinate. -/
theorem emb_in_val (t : Fin cfg0.N) (p : ((win0 0).xblock (grid0.coords t)).Idx) (a : Fin (win0 0).shape.rank) :
    ((((cfg0.win 0).blk t).view.emb p) a : Nat) = (win0 0).index t a * (win0 0).size a + (p a : Nat) := by
  simp only [Memref.view_slice, Memref.view_whole, View.emb_slice, Function.Embedding.trans_apply, View.emb_whole,
    Function.Embedding.refl_apply]
  exact (win0 0).rect_emb_val t p a

/-- The same for the output block. -/
theorem emb_out_val (t : Fin cfg0.N) (j : ((win0 1).xblock (grid0.coords t)).Idx) (a : Fin (win0 1).shape.rank) :
    ((((View.whole main_v0).slice ((win0 1).rect t)).emb j) a : Nat) = (win0 1).index t a * (win0 1).size a + (j a : Nat) := by
  rw [View.emb_slice, Function.Embedding.trans_apply, View.emb_whole, Function.Embedding.refl_apply]
  exact (win0 1).rect_emb_val t j a

/-- Time step `k` over index `j` of the output block at point `t`, placed in the waveform array, is time step `k` over
    the place of `j` in the output array: the two windows sit at the same block of rows and at block 0 elsewhere. -/
theorem blk_emb (t : Fin cfg0.N) (j : ((win0 1).xblock (grid0.coords t)).Idx) (k : Fin 121)
    (e0 : win0_0.index t (0 : Fin 3) = t.val) (e1 : win0_0.index t (1 : Fin 3) = 0) (e2 : win0_0.index t (2 : Fin 3) = 0)
    (e3 : win0_1.index t (0 : Fin 2) = t.val) (e4 : win0_1.index t (1 : Fin 2) = 0) :
    ((cfg0.win 0).blk t).view.emb (reduces_S128x121x40_S128x40.lift ((win0 1).xinj (grid0.coords t) j) k)
      = redR.lift (((View.whole main_v0).slice ((win0 1).rect t)).emb j) k := by
  have h0 := emb_out_val t j ⟨0, by decide⟩
  have h1 := emb_out_val t j ⟨1, by decide⟩
  generalize (((View.whole main_v0).slice ((win0 1).rect t)).emb j : S8192x40.Idx) = I at h0 h1 ⊢
  funext a; apply Fin.ext
  rw [emb_in_val]
  match a with
  | ⟨0, _⟩ =>
    have h0' : (I 0).val = win0_1.index t (0 : Fin 2) * 128 + (j 0).val := h0
    show win0_0.index t (0 : Fin 3) * 128 + (j 0).val = (I 0).val
    omega
  | ⟨1, _⟩ =>
    show win0_0.index t (1 : Fin 3) * 121 + k.val = k.val
    omega
  | ⟨2, _⟩ =>
    have h1' : (I 1).val = win0_1.index t (1 : Fin 2) * 40 + (j 1).val := h1
    show win0_0.index t (2 : Fin 3) * 40 + (j 1).val = (I 1).val
    omega

/-! ## Closed form: the output array as one function of the waveform array, index by index -/

theorem hz1 : (![0, 0] : Fin 2 → Nat) = fun _ => 0 := funext fun a => by fin_cases a <;> rfl
theorem hz0 : (![0, 0, 0] : Fin 3 → Nat) = fun _ => 0 := funext fun a => by fin_cases a <;> rfl

/-- The printed index maps, decided over the grid: at point `t` both windows sit at block `t` of the rows and at
    block 0 of every other axis. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0 :=
  (by decide +kernel : ∀ t : Fin grid0.N, _)

/-- WHAT POINT `t` WRITES BACK is block `t` of the reference's peak-to-peak stage of the waveform array as the region
    finds it: a row of the block is row `128 t + p` of the array, all its time steps in the block. -/
theorem flushed_eq (V : (c : Dev nD) → (b : Ref sig .tc) → Buf (Elt Ideal) ((c : Thread nD τ).loc b)) (c : Dev nD) (t : Fin cfg0.N) :
    (dat0 (F := Ideal) V c).flushed 1 t
      = ((cfg0.win 1).blk t).view.read (Elt Ideal) (Cert.ReferenceIdeal.Read.val_main_v2 (F := Ideal) (V c main_arg0)) := by
  show (cfg0.win 1).cut (grid0.coords t) ((dat0 (F := Ideal) V c).after 1 t) = _
  rw [after0_1]
  unfold out0_1
  rw [View.canon_unit_zero hz1]
  simp only [View.ld_unit_zero (S := S128x121x40) hz0]
  obtain ⟨e0, e1, e2, e3, e4⟩ := idx_facts t
  funext j
  generalize hP : k0_pay1 (F := Ideal) (iblk0 (F := Ideal) V c 0 t) = P
  generalize hG : Cert.ReferenceIdeal.Read.val_main_v2 (F := Ideal) (V c main_arg0) = G
  rw [View.read_apply, cast_eq]
  show P ((win0 1).xinj (grid0.coords t) j) = _
  subst hP; subst hG
  refine point_eq (V c main_arg0) (iblk0 (F := Ideal) V c 0 t) _ ((win0 1).xinj (grid0.coords t) j) ?_
  intro k
  unfold iblk0
  rw [View.read_apply, cast_eq]
  exact congrArg (V c main_arg0) (blk_emb t j k e0 e1 e2 e3 e4)

/-- An index of the array is in point `t`'s block iff each coordinate is in the block's range on its axis. -/
theorem mem_blk (t : Fin cfg0.N) (i : S8192x40.Idx) :
    i ∈ ((cfg0.win 1).blk t).view.set ↔ ∀ a : Fin 2, win0_1.index t a * S128x40.size a ≤ (i a).val ∧ (i a).val < win0_1.index t a * S128x40.size a + S128x40.size a := by
  show i ∈ ((View.whole main_v0).slice (win0_1.rect t)).set ↔ _
  rw [View.set_slice_whole, Rect.mem_set_unit]
  exact Iff.rfl

/-- Every index of the array is in some point's block: row `r` is in the block of point `r / 128`. -/
theorem cover (i : S8192x40.Idx) :
    ∃ t : Fin cfg0.N, (cfg0.win 1).flush t = true ∧ i ∈ ((cfg0.win 1).blk t).view.set := by
  have hi0 : (i 0).val < 8192 := (i 0).isLt
  have hi1 : (i 1).val < 40 := (i 1).isLt
  have ht : (i 0).val / 128 < cfg0.N := by show (i 0).val / 128 < 64; omega
  obtain ⟨e0, e1, e2, e3, e4⟩ := idx_facts ⟨(i 0).val / 128, ht⟩
  refine ⟨⟨(i 0).val / 128, ht⟩, flush0_1 _, ?_⟩
  rw [mem_blk]
  intro a
  have e3' : win0_1.index ⟨(i 0).val / 128, ht⟩ (0 : Fin 2) = (i 0).val / 128 := e3
  match a with
  | ⟨0, _⟩ => show win0_1.index ⟨(i 0).val / 128, ht⟩ (0 : Fin 2) * 128 ≤ (i 0).val ∧ (i 0).val < win0_1.index ⟨(i 0).val / 128, ht⟩ (0 : Fin 2) * 128 + 128; omega
  | ⟨1, _⟩ => show win0_1.index ⟨(i 0).val / 128, ht⟩ (1 : Fin 2) * 40 ≤ (i 1).val ∧ (i 1).val < win0_1.index ⟨(i 0).val / 128, ht⟩ (1 : Fin 2) * 40 + 40; omega

/-- After the first region's 64 grid points its output array holds, whatever contents `V` the region was entered
    from, the host's peak-to-peak stage of the waveform array as entered. -/
theorem ptp_array (V : (c : Dev nD) → (b : Ref sig .tc) → Buf (Elt Ideal) ((c : Thread nD τ).loc b)) (c : Dev nD) :
    (dat0 (F := Ideal) V c).arrAt 1 cfg0.N = Cert.ReferenceIdeal.Read.val_main_v2 (F := Ideal) (V c main_arg0) :=
  (dat0 (F := Ideal) V c).arrAt_eq_of_cover 1 (Cert.ReferenceIdeal.Read.val_main_v2 (F := Ideal) (V c main_arg0))
    (fun t _ => flushed_eq V c t) cover

end Cert.KernelIdeal.PtpValue

end
-- ==== Proof.ParentsSpec.lean ====
/-
  Reading the padded peak-to-peak table at a waveform's parent indices, index by index: parent index `e` (a 32-bit
  word read signed) names column `e` of the 41-wide row, or column `e + 41` when negative, and the column is then
  clamped into [0, 40]; entry (n, j, p) of the result is the table at row n and that column of `pidx n j p`.
-/
import Idealize.ShloMosaic.PureOps
import Idealize.ShloMosaic.Lib.ValueIdx

noncomputable section

namespace Cert.Parents

open Idealize.ShloMosaic Idealize.ShloMosaic.ValueIdx

/-- A parent index counted from the end of the 41-wide row when negative. -/
def wrapWord (e : BitVec 32) : BitVec 32 :=
  Scalar.select (IntOp.cmpi .slt e 0#32) (IntOp.addi e 41#32) e

/-- The column it names, clamped into the row. -/
def column (e : BitVec 32) : Fin 41 := ⟨min (wrapWord e).toInt.toNat 40, by omega⟩

/-- The table read at each waveform's parent columns. -/
def parentEntries {α : Type} (x : (⟨2, ![8192, 41]⟩ : Shape).Idx → α) (pidx : IVec ⟨3, ![8192, 40, 12]⟩ 32) :
    (⟨3, ![8192, 40, 12]⟩ : Shape).Idx → α :=
  fun i => x (ix2 (⟨(i 0).val, (i 0).isLt⟩ : Fin 8192) (column (pidx i)))

end Cert.Parents

end
-- ==== Proof.KernelParents.lean ====
/-
  The kernel side's take of the padded table at the parent indices, index by index. The [40, 12] slab of indices is
  flattened to 480, wrapped, tested against [0, 40], gathered with row n of the table for waveform n, and laid out
  [40, 12] again; entry (n, j, p) is therefore the table at row n and the wrapped index of `pidx n j p` whenever that
  index passes the range test, which it does for every index in [-41, 40].
-/
import proofs.«407962_j59150289600719_2_alg».proof.Proof.KernelStages
import proofs.«407962_j59150289600719_2_alg».proof.Proof.ParentsSpec
import Idealize.ShloMosaic.Lib.Pipeline.Value
import Idealize.ShloMosaic.Lib.ValueIdx
import Idealize.ShloMosaic.Lib.StableHlo.Predicate

set_option maxRecDepth 16384

noncomputable section

namespace Cert.KernelIdeal.ParentsValue

open Cert.KernelIdeal
open Idealize.ShloMosaic Idealize.ShloMosaic.TcCoe Idealize.SL.Sem Idealize.ShloMosaic.ValueIdx

variable {F : FTy → Type} [FloatOps F]

/-- A word in [-41, 40], wrapped, reads signed as a number in [0, 40]. -/
theorem wrapWord_range (e : BitVec 32) (h : -41 ≤ e.toInt ∧ e.toInt ≤ 40) :
    0 ≤ (Cert.Parents.wrapWord e).toInt ∧ (Cert.Parents.wrapWord e).toInt ≤ 40 := by
  unfold Cert.Parents.wrapWord Scalar.select IntOp.cmpi IntOp.addi
  by_cases hs : e.slt 0#32 = true
  · have hlt : e.toInt < 0 := by simpa [BitVec.slt] using hs
    simp only [hs, BitVec.ofBool_true, if_true]
    rw [BitVec.toInt_add]
    have : (41#32).toInt = 41 := by decide
    rw [this]
    have hb : (e.toInt + 41).bmod (2 ^ 32) = e.toInt + 41 := by
      apply Int.bmod_eq_of_le <;> omega
    rw [hb]; omega
  · have hge : 0 ≤ e.toInt := by
      have : ¬ e.toInt < 0 := by simpa [BitVec.slt] using hs
      omega
    have hs' : e.slt 0#32 = false := by simpa using hs
    simp only [hs', BitVec.ofBool_false]
    rw [if_neg (by decide)]
    omega

/-- So the wrapped word passes the lower range test, -/
theorem wrapWord_sge (e : BitVec 32) (h : -41 ≤ e.toInt ∧ e.toInt ≤ 40) :
    IntOp.cmpi .sge (Cert.Parents.wrapWord e) 0#32 = 1#1 := by
  have hw := wrapWord_range e h
  unfold IntOp.cmpi
  have : (0#32).sle (Cert.Parents.wrapWord e) = true := by
    simp only [BitVec.sle, decide_eq_true_eq]
    have : (0#32).toInt = 0 := by decide
    omega
  simp only [this]; rfl

/-- and the upper one. -/
theorem wrapWord_sle (e : BitVec 32) (h : -41 ≤ e.toInt ∧ e.toInt ≤ 40) :
    IntOp.cmpi .sle (Cert.Parents.wrapWord e) 40#32 = 1#1 := by
  have hw := wrapWord_range e h
  unfold IntOp.cmpi
  have : (Cert.Parents.wrapWord e).sle 40#32 = true := by
    simp only [BitVec.sle, decide_eq_true_eq]
    have : (40#32).toInt = 40 := by decide
    omega
  simp only [this]; rfl

/-- The wrapped column of index vectors at (n, k, 0) is the wrapped word of the flat index at (n, k). -/
theorem wrapped_apply (q : IVec S8192x480 32) (n : Fin 8192) (k : Fin 480) :
    Stages.wrapped (F := F) q (ix3 n k (0 : Fin 1)) = Cert.Parents.wrapWord (q (ix2 n k)) := by
  unfold Stages.wrapped
  rw [shapeCast_apply _ _ (ix3 n k (0 : Fin 1)) (ix2 n k) (by
    rw [Shape.rowMajor_val_two, Shape.rowMajor_val_three]
    show n.val * 480 + k.val = (n.val * 480 + k.val) * 1 + 0
    omega)]
  rfl

/-- The fold of a commutative, associative operation over a one-element index set is one step. -/
theorem fold_fin_one {α : Type} {m : Nat} (hm : m = 1) (op : α → α → α) [Std.Commutative op] [Std.Associative op] (b : α)
    (g : Fin m → α) : (Finset.univ : Finset (Fin m)).fold op b g = op (g ⟨0, by omega⟩) b := by
  subst hm
  rw [Finset.univ_unique, Finset.fold_singleton]; rfl

/-- The last axis of [8192, 480, 1] reduces away to [8192, 480]. -/
theorem reduces_last : S8192x480x1.Reduces [2] S8192x480 := by decide

/-- Inserting a coordinate on the last axis (of extent 1) of (n, k) gives (n, k, 0). -/
theorem lift_last (n : Fin 8192) (k : Fin 480) (z : Fin (S8192x480x1.size 2)) :
    reduces_last.lift (ix2 n k) z = ix3 n k (0 : Fin 1) := by
  funext c; apply Fin.ext
  match c with
  | ⟨0, _⟩ => rfl
  | ⟨1, _⟩ => rfl
  | ⟨2, _⟩ => exact Nat.lt_one_iff.mp z.isLt

/-- The range test at (n, k): the AND over the one index vector component of the two comparisons. -/
theorem inRange_apply (w : IVec S8192x480x1 32) (n : Fin 8192) (k : Fin 480) :
    Stages.inRange (F := F) w (ix2 n k)
      = IntOp.andi (IntOp.andi (IntOp.cmpi .sge (w (ix3 n k (0 : Fin 1))) 0#32) (IntOp.cmpi .sle (w (ix3 n k (0 : Fin 1))) 40#32)) 1#1 := by
  unfold Stages.inRange
  rw [Host.reduce_eq_fold_single (f := IntOp.andi) (h := reduces_last)]
  refine (fold_fin_one (m := S8192x480x1.size 2) rfl IntOp.andi _ _).trans ?_
  rw [Function.comp_apply, lift_last]
  rfl

/-- The gather at (n, k): row n of the table (axis 0 is a batching axis), at the column the index word at (n, k, 0)
    names, read signed and clamped into the row (axis 1 is collapsed and start-indexed, slice size 1). -/
theorem gather_apply {α : Type} (x : S8192x41.Idx → α) (w : IVec S8192x480x1 32) (n : Fin 8192) (k : Fin 480) :
    Host.gather gather_S8192x41_S8192x480x1_S8192x480_n_1_0_0_1_2_11 x w (ix2 n k)
      = x (ix2 n (⟨min (w (ix3 n k (0 : Fin 1))).toInt.toNat 40, by omega⟩ : Fin 41)) := by
  unfold Host.gather
  congr 1
  funext a
  apply Fin.ext
  match a with
  | ⟨0, _⟩ =>
    show gather_S8192x41_S8192x480x1_S8192x480_n_1_0_0_1_2_11.start (ix2 n k) w 0
        + gather_S8192x41_S8192x480x1_S8192x480_n_1_0_0_1_2_11.batchCoord (ix2 n k) 0
        + gather_S8192x41_S8192x480x1_S8192x480_n_1_0_0_1_2_11.offCoord (ix2 n k) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x41_S8192x480x1_S8192x480_n_1_0_0_1_2_11.operandBatchingDims from List.mem_singleton.mpr rfl)]
    rfl
  | ⟨1, _⟩ =>
    show gather_S8192x41_S8192x480x1_S8192x480_n_1_0_0_1_2_11.start (ix2 n k) w 1
        + gather_S8192x41_S8192x480x1_S8192x480_n_1_0_0_1_2_11.batchCoord (ix2 n k) 1
        + gather_S8192x41_S8192x480x1_S8192x480_n_1_0_0_1_2_11.offCoord (ix2 n k) 1 = min (w (ix3 n k (0 : Fin 1))).toInt.toNat 40
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x41_S8192x480x1_S8192x480_n_1_0_0_1_2_11.startIndexMap from List.mem_singleton.mpr rfl)]
    have hsi : gather_S8192x41_S8192x480x1_S8192x480_n_1_0_0_1_2_11.siIdx (ix2 n k)
        ⟨List.idxOf (1 : Fin 2) gather_S8192x41_S8192x480x1_S8192x480_n_1_0_0_1_2_11.startIndexMap,
          List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl

/-- The take at a column of index vectors, at (n, k), when the word there reads signed in [0, 40]: the range test
    passes, so the entry is the gathered one. -/
theorem takeAt_apply (x : (⟨S8192x41, .f32⟩ : BufTy).Contents (Elt F)) (w : IVec S8192x480x1 32) (n : Fin 8192) (k : Fin 480)
    (hge : IntOp.cmpi .sge (w (ix3 n k (0 : Fin 1))) 0#32 = 1#1) (hle : IntOp.cmpi .sle (w (ix3 n k (0 : Fin 1))) 40#32 = 1#1) :
    Stages.takeAt (F := F) x w (ix2 n k)
      = x (ix2 n (⟨min (w (ix3 n k (0 : Fin 1))).toInt.toNat 40, by omega⟩ : Fin 41)) := by
  unfold Stages.takeAt
  show Scalar.select (Stages.inRange (F := F) w (ix2 n k))
    (Host.gather gather_S8192x41_S8192x480x1_S8192x480_n_1_0_0_1_2_11 x w (ix2 n k)) _ = _
  rw [inRange_apply, hge, hle, gather_apply]
  exact select_one _ _

/-- The take along axis 1 at (n, k), for an index in [-41, 40]: row n of the table at the column the index names. -/
theorem flatTake_apply (x : (⟨S8192x41, .f32⟩ : BufTy).Contents (Elt F)) (q : IVec S8192x480 32) (n : Fin 8192) (k : Fin 480)
    (h : -41 ≤ (q (ix2 n k)).toInt ∧ (q (ix2 n k)).toInt ≤ 40) :
    Stages.flatTake (F := F) x q (ix2 n k) = x (ix2 n (Cert.Parents.column (q (ix2 n k)))) := by
  unfold Stages.flatTake
  rw [takeAt_apply x _ n k (by rw [wrapped_apply]; exact wrapWord_sge _ h) (by rw [wrapped_apply]; exact wrapWord_sle _ h)]
  refine congrArg x (congrArg (ix2 n) (Fin.ext ?_))
  show min ((Stages.wrapped (F := F) q (ix3 n k (0 : Fin 1))).toInt.toNat) 40 = min (Cert.Parents.wrapWord (q (ix2 n k))).toInt.toNat 40
  rw [wrapped_apply]

/-- Position (n, 12 j + p) of the flattened slab of indices is entry (n, j, p). -/
theorem flat_apply {α : Type} (pidx : S8192x40x12.Idx → α) (n : Fin 8192) (j : Fin 40) (p : Fin 12) (hk : 12 * j.val + p.val < 480) :
    shapeCast S8192x480 pidx Gen.shapeCasts_S8192x40x12_S8192x480 (ix2 n (⟨12 * j.val + p.val, hk⟩ : Fin 480)) = pidx (ix3 n j p) := by
  refine shapeCast_apply _ _ _ _ ?_
  rw [Shape.rowMajor_val_two, Shape.rowMajor_val_three]
  show (n.val * 40 + j.val) * 12 + p.val = n.val * 480 + (12 * j.val + p.val)
  omega

/-- Entry (n, j, p) of the [40, 12] layout is position (n, 12 j + p) of the flat one. -/
theorem unflat_apply {α : Type} (y : S8192x480.Idx → α) (n : Fin 8192) (j : Fin 40) (p : Fin 12) (hk : 12 * j.val + p.val < 480) :
    shapeCast S8192x40x12 y Gen.shapeCasts_S8192x480_S8192x40x12 (ix3 n j p) = y (ix2 n (⟨12 * j.val + p.val, hk⟩ : Fin 480)) := by
  refine shapeCast_apply _ _ _ _ ?_
  rw [Shape.rowMajor_val_two, Shape.rowMajor_val_three]
  show n.val * 480 + (12 * j.val + p.val) = (n.val * 40 + j.val) * 12 + p.val
  omega

/-- With every parent index a valid position of the 41-wide row, counted from either end, the take reads the table
    entry the index names. -/
theorem kernel_entries (x : (⟨S8192x41, .f32⟩ : BufTy).Contents (Elt F)) (pidx : IVec S8192x40x12 32)
    (hr : ∀ i, -41 ≤ (pidx i).toInt ∧ (pidx i).toInt ≤ 40) :
    Stages.parentPtps (F := F) x pidx = Cert.Parents.parentEntries x pidx := by
  funext i
  obtain ⟨n, j, p, rfl⟩ : ∃ (n : Fin 8192) (j : Fin 40) (p : Fin 12), i = ix3 n j p := ⟨i 0, i 1, i 2, eq_ix3 i⟩
  have hk : 12 * j.val + p.val < 480 := by have := j.isLt; have := p.isLt; omega
  unfold Stages.parentPtps
  rw [unflat_apply _ n j p hk, flatTake_apply x _ n ⟨12 * j.val + p.val, hk⟩ (by rw [flat_apply pidx n j p hk]; exact hr _),
    flat_apply pidx n j p hk]
  rfl

end Cert.KernelIdeal.ParentsValue

end
-- ==== Proof.RefHost.lean ====
/-
  The reference's gather of parent peak-to-peak values, as a pure function of the table it reads and of the array of
  parent indices: result element (n, j, p) reads the table at the PAIR (row number n, parent index `pidx n j p`), each
  component counted from the end when negative — the row numbers an iota, never negative — and the pair then clamped
  into the table by the gather itself.
-/
import proofs.«407962_j59150289600719_2_alg».proof.Proof.Gen.ReferenceIdeal.Read

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The parent indices, a negative one counted from the end of the 41-wide table. -/
def wrappedParents (pidx : (⟨S8192x40x12, .i32⟩ : BufTy).Contents (Elt F)) : (⟨S8192x40x12, .i32⟩ : BufTy).Contents (Elt F) :=
  select (cmpi .slt pidx (Read.val_main_v18 (F := F))) (addi pidx (Read.val_main_v20 (F := F))) pidx

/-- The index pairs (row number, parent index), the pair along a last axis of extent 2. -/
def indexPairs (pidx : (⟨S8192x40x12, .i32⟩ : BufTy).Contents (Elt F)) : (⟨S8192x40x12x2, .i32⟩ : BufTy).Contents (Elt F) :=
  concatenate S8192x40x12x2 3
    [⟨S8192x40x12x1, (Read.val_main_v24 (F := F))⟩,
     ⟨S8192x40x12x1, broadcastInDim S8192x40x12x1 ![0, 1, 2] bcast_S8192x40x12_S8192x40x12x1_0_1_2 (wrappedParents (F := F) pidx)⟩]
    concatenates_S8192x40x12x1_S8192x40x12x1_S8192x40x12x2_d3

/-- The table `x` read at those pairs. -/
def parentPtps (x : (⟨S8192x41, .f32⟩ : BufTy).Contents (Elt F)) (pidx : (⟨S8192x40x12, .i32⟩ : BufTy).Contents (Elt F)) :
    (⟨S8192x40x12, .f32⟩ : BufTy).Contents (Elt F) :=
  Host.gather gather_S8192x41_S8192x40x12x2_S8192x40x12_n_01_n_n_01_3_11 x (indexPairs (F := F) pidx)

/-- The reference's gathered stage is this function of its padded table and its slab of parent indices. -/
theorem val_main_v27_eq (x0 : (⟨S8192x121x40, .f32⟩ : BufTy).Contents (Elt F)) (x1 : (⟨S8192, .i32⟩ : BufTy).Contents (Elt F))
    (x2 : (⟨S384x40x12, .i32⟩ : BufTy).Contents (Elt F)) :
    Read.val_main_v27 (F := F) x0 x1 x2 = parentPtps (Read.val_main_v3 (F := F) x0) (Read.val_main_v10 (F := F) x1 x2) := rfl

end Cert.ReferenceIdeal.Stages

end
-- ==== Proof.RefParents.lean ====
/-
  The reference's gather of the padded table at (row number, parent index) pairs, index by index: the row number of
  entry (n, j, p) is n itself (an iota, never negative, never clamped), and the parent index is wrapped when negative and
  clamped into [0, 40] by the gather.
-/
import proofs.«407962_j59150289600719_2_alg».proof.Proof.RefHost
import proofs.«407962_j59150289600719_2_alg».proof.Proof.ParentsSpec
import Idealize.ShloMosaic.Lib.Pipeline.Value
import Idealize.ShloMosaic.Lib.ValueIdx
import Idealize.ShloMosaic.Lib.StableHlo.Predicate

set_option maxRecDepth 16384

noncomputable section

namespace Cert.ReferenceIdeal.ParentsValue

open Cert.ReferenceIdeal
open Idealize.ShloMosaic Idealize.ShloMosaic.TcCoe Idealize.SL.Sem Idealize.ShloMosaic.ValueIdx
open Cert.ReferenceIdeal.Gen Idealize.ShloMosaic.StableHlo.Predicate

variable {F : FTy → Type} [FloatOps F]

/-- A row number below 8192 is not negative as a signed word: the wrap keeps it. -/
theorem rowWord_keep (n : Nat) (hn : n < 8192) :
    Scalar.select (IntOp.cmpi .slt (BitVec.ofNat 32 n) 0#32) (IntOp.addi (BitVec.ofNat 32 n) 8192#32) (BitVec.ofNat 32 n)
      = BitVec.ofNat 32 n := by
  have h : ¬ IntOp.cmpi .slt (BitVec.ofNat 32 n) 0#32 = 1#1 := by
    rw [slt_iff_toNat (by rw [BitVec.toNat_ofNat]; omega) (by decide)]
    simp
  rw [eq_zero_of_ne_one h, select_zero]

/-- The row numbers at entry (n, j, p, 0): n. -/
theorem rowNumbers_apply (n : Fin 8192) (j : Fin 40) (p : Fin 12) (c : Fin 1) :
    Read.val_main_v24 (F := F) (ix4 n j p c) = BitVec.ofNat 32 n.val := by
  rw [Read.val_main_v24_apply, Read.val_main_v23_apply, Read.val_main_v17_apply, Read.val_main_v14_apply,
    Read.val_main_v16_apply, Read.val_main_v12_apply, Read.val_main_v13_apply, Read.val_main_v15_apply,
    Read.val_main_v11_apply, Read.val_main_c_3_apply, Read.val_main_c_4_apply]
  exact rowWord_keep n.val n.isLt

/-- The wrapped parent indices at an index: the wrap of the word there. -/
theorem wrappedParents_apply (pidx : IVec S8192x40x12 32) (i : S8192x40x12.Idx) :
    Stages.wrappedParents (F := F) pidx i = Cert.Parents.wrapWord (pidx i) := by
  show Scalar.select (IntOp.cmpi .slt (pidx i) (Read.val_main_v18 (F := F) i))
    (IntOp.addi (pidx i) (Read.val_main_v20 (F := F) i)) (pidx i) = _
  rw [Read.val_main_v18_apply, Read.val_main_v20_apply, Read.val_main_c_5_apply, Read.val_main_c_6_apply]
  rfl

/-- The index pairs at slot 0 of entry (n, j, p): the row number n. -/
theorem indexPairs_row (pidx : IVec S8192x40x12 32) (n : Fin 8192) (j : Fin 40) (p : Fin 12) :
    Stages.indexPairs (F := F) pidx (ix4 n j p (0 : Fin 2)) = BitVec.ofNat 32 n.val := by
  unfold Stages.indexPairs
  refine (concatenate_pair_apply_left (t := S8192x40x12x2) (s₁ := S8192x40x12x1) (s₂ := S8192x40x12x1) (3 : Fin 4) _ _
    concatenates_S8192x40x12x1_S8192x40x12x1_S8192x40x12x2_d3 (ix4 n j p (0 : Fin 2)) rfl (ix4 n j p (0 : Fin 1)) ?_).trans ?_
  · intro b
    match b with
    | ⟨0, _⟩ => rfl
    | ⟨1, _⟩ => rfl
    | ⟨2, _⟩ => rfl
    | ⟨3, _⟩ => rfl
  · exact rowNumbers_apply n j p 0

/-- The index pairs at slot 1 of entry (n, j, p): the wrapped parent index there. -/
theorem indexPairs_col (pidx : IVec S8192x40x12 32) (n : Fin 8192) (j : Fin 40) (p : Fin 12) :
    Stages.indexPairs (F := F) pidx (ix4 n j p (1 : Fin 2)) = Cert.Parents.wrapWord (pidx (ix3 n j p)) := by
  unfold Stages.indexPairs
  refine (concatenate_pair_apply_right (t := S8192x40x12x2) (s₁ := S8192x40x12x1) (s₂ := S8192x40x12x1) (3 : Fin 4) _ _
    concatenates_S8192x40x12x1_S8192x40x12x1_S8192x40x12x2_d3 (ix4 n j p (1 : Fin 2)) rfl rfl (ix4 n j p (0 : Fin 1)) ?_ ?_).trans ?_
  · intro b hb
    match b, hb with
    | ⟨0, _⟩, _ => rfl
    | ⟨1, _⟩, _ => rfl
    | ⟨2, _⟩, _ => rfl
    | ⟨3, _⟩, hb => exact absurd rfl hb
  · rfl
  · refine (broadcastInDim_apply _ bcast_S8192x40x12_S8192x40x12x1_0_1_2 (Stages.wrappedParents (F := F) pidx)
      (ix4 n j p (0 : Fin 1)) (ix3 n j p) (fun a => match a with
        | ⟨0, _⟩ => by show n.val = if (8192 : Nat) = 1 then 0 else n.val; rw [if_neg (by decide)]
        | ⟨1, _⟩ => by show j.val = if (40 : Nat) = 1 then 0 else j.val; rw [if_neg (by decide)]
        | ⟨2, _⟩ => by show p.val = if (12 : Nat) = 1 then 0 else p.val; rw [if_neg (by decide)])).trans ?_
    exact wrappedParents_apply pidx (ix3 n j p)

/-- The gather at entry (n, j, p): the table at the pair there, each component read signed and clamped into its axis. -/
theorem gather_pairs_apply {α : Type} (x : S8192x41.Idx → α) (idx : IVec S8192x40x12x2 32)
    (n : Fin 8192) (j : Fin 40) (p : Fin 12) :
    Host.gather gather_S8192x41_S8192x40x12x2_S8192x40x12_n_01_n_n_01_3_11 x idx (ix3 n j p)
      = x (ix2 (⟨min (idx (ix4 n j p (0 : Fin 2))).toInt.toNat 8191, by omega⟩ : Fin 8192)
          (⟨min (idx (ix4 n j p (1 : Fin 2))).toInt.toNat 40, by omega⟩ : Fin 41)) := by
  unfold Host.gather
  congr 1
  funext a
  refine Fin.ext ?_
  match a with
  | ⟨0, _⟩ =>
    show gather_S8192x41_S8192x40x12x2_S8192x40x12_n_01_n_n_01_3_11.start (ix3 n j p) idx 0
      + gather_S8192x41_S8192x40x12x2_S8192x40x12_n_01_n_n_01_3_11.batchCoord (ix3 n j p) 0
      + gather_S8192x41_S8192x40x12x2_S8192x40x12_n_01_n_n_01_3_11.offCoord (ix3 n j p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x41_S8192x40x12x2_S8192x40x12_n_01_n_n_01_3_11.startIndexMap by decide)]
    have hsi : gather_S8192x41_S8192x40x12x2_S8192x40x12_n_01_n_n_01_3_11.siIdx (ix3 n j p)
        ⟨List.idxOf (0 : Fin 2) gather_S8192x41_S8192x40x12x2_S8192x40x12_n_01_n_n_01_3_11.startIndexMap,
          List.idxOf_lt_length_iff.2 (by decide)⟩ = ix4 n j p (0 : Fin 2) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show gather_S8192x41_S8192x40x12x2_S8192x40x12_n_01_n_n_01_3_11.start (ix3 n j p) idx 1
      + gather_S8192x41_S8192x40x12x2_S8192x40x12_n_01_n_n_01_3_11.batchCoord (ix3 n j p) 1
      + gather_S8192x41_S8192x40x12x2_S8192x40x12_n_01_n_n_01_3_11.offCoord (ix3 n j p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x41_S8192x40x12x2_S8192x40x12_n_01_n_n_01_3_11.startIndexMap by decide)]
    have hsi : gather_S8192x41_S8192x40x12x2_S8192x40x12_n_01_n_n_01_3_11.siIdx (ix3 n j p)
        ⟨List.idxOf (1 : Fin 2) gather_S8192x41_S8192x40x12x2_S8192x40x12_n_01_n_n_01_3_11.startIndexMap,
          List.idxOf_lt_length_iff.2 (by decide)⟩ = ix4 n j p (1 : Fin 2) := by
      funext b; refine Fin.ext ?_
      match b with
      | ⟨0, _⟩ => rfl
      | ⟨1, _⟩ => rfl
      | ⟨2, _⟩ => rfl
      | ⟨3, _⟩ => rfl
    rw [hsi]
    rfl

/-- The gather reads the table entry each parent index names, whatever the indices. -/
theorem reference_entries (x : (⟨S8192x41, .f32⟩ : BufTy).Contents (Elt F)) (pidx : IVec S8192x40x12 32) :
    Stages.parentPtps (F := F) x pidx = Cert.Parents.parentEntries x pidx := by
  funext i
  obtain ⟨n, j, p, rfl⟩ : ∃ (n : Fin 8192) (j : Fin 40) (p : Fin 12), i = ix3 n j p := ⟨i 0, i 1, i 2, eq_ix3 i⟩
  have hn : n.val < 8192 := n.isLt
  unfold Stages.parentPtps
  rw [gather_pairs_apply]
  show x (ix2 _ _) = x (ix2 (⟨n.val, n.isLt⟩ : Fin 8192) (Cert.Parents.column (pidx (ix3 n j p))))
  refine congrArg x (congrArg₂ (fun (a : Fin 8192) (b : Fin 41) => ix2 a b) (Fin.ext ?_) (Fin.ext ?_))
  · -- the row: the row number n, not negative and below the table's height, is read as n and not clamped
    show min (Stages.indexPairs (F := F) pidx (ix4 n j p (0 : Fin 2))).toInt.toNat 8191 = n.val
    rw [indexPairs_row, toInt_ofNat_small n.val (by omega), Int.toNat_natCast]
    exact Nat.min_eq_left (by omega)
  · -- the column: the wrapped parent index, clamped into the row
    show min (Stages.indexPairs (F := F) pidx (ix4 n j p (1 : Fin 2))).toInt.toNat 40 = _
    rw [indexPairs_col]
    rfl

end Cert.ReferenceIdeal.ParentsValue

end
-- ==== Proof.ParentsJoint.lean ====
/-
  The two ways of reading the padded table at the parent indices agree when every index is a valid position of the
  41-wide row, counted from either end: both are the table entry the wrapped index names.
-/
import proofs.«407962_j59150289600719_2_alg».proof.Proof.KernelParents
import proofs.«407962_j59150289600719_2_alg».proof.Proof.RefParents

noncomputable section

namespace Cert.Joint

open Idealize.ShloMosaic Idealize.ShloMosaic.TcCoe Idealize.SL.Sem

variable {F : FTy → Type} [FloatOps F]

/-- Under the range hypothesis the kernel side's take and the reference's gather are one array. -/
theorem parentPtps_eq (x : (⟨Cert.KernelIdeal.S8192x41, .f32⟩ : BufTy).Contents (Elt F))
    (pidx : IVec Cert.KernelIdeal.S8192x40x12 32)
    (hr : ∀ i, -41 ≤ (pidx i).toInt ∧ (pidx i).toInt ≤ 40) :
    Cert.KernelIdeal.Stages.parentPtps (F := F) x pidx = Cert.ReferenceIdeal.Stages.parentPtps (F := F) x pidx :=
  (Cert.KernelIdeal.ParentsValue.kernel_entries x pidx hr).trans
    (Cert.ReferenceIdeal.ParentsValue.reference_entries x pidx).symm

end Cert.Joint

end
-- ==== Proof.KernelValue.lean ====
/-
  The kernel program's two results as the reference's own stage functions of the launch arrays.

  The last boundary's contents at the first result's buffer are what the second region's write-backs leave: the
  waveforms times the factor, the factor being the host functions of what the first region left; the first region
  left the peak-to-peak table, which is the reference's stage; and, every parent index lying in [-41, 40], the kernel
  side's take of the padded table is the reference's gather, so the factor is the reference's factor stage. The second
  result is the table times that factor.
-/
import proofs.«407962_j59150289600719_2_alg».proof.Proof.KernelEntry
import proofs.«407962_j59150289600719_2_alg».proof.Proof.MulValue
import proofs.«407962_j59150289600719_2_alg».proof.Proof.PtpValue
import proofs.«407962_j59150289600719_2_alg».proof.Proof.ParentsJoint

set_option maxRecDepth 16384

noncomputable section

namespace Cert.KernelIdeal.ResultValue

open Cert.KernelIdeal Cert.KernelIdeal.Gen
open Idealize.ShloMosaic Idealize.ShloMosaic.TcCoe Idealize.SL.Sem
open Cert.ReferenceIdeal.Read (val_main_v2 val_main_v31 val_main_v32 val_main_v33 val_main_v34 val_main_v35
  val_main_v35_apply val_main_v34_apply val_main_v33_apply idx_main_v33 idx_main_v34)

/-- With every parent index in [-41, 40] the kernel side's factor of the reference's table stage is the reference's
    factor stage: the two reads of the padded table agree, and the rest is one text. -/
theorem factor_eq (x0 : (⟨S8192x121x40, .f32⟩ : BufTy).Contents (Elt Ideal)) (x1 : (⟨S8192, .i32⟩ : BufTy).Contents (Elt Ideal))
    (x2 : (⟨S384x40x12, .i32⟩ : BufTy).Contents (Elt Ideal)) (hr : ∀ i, -41 ≤ (x2 i).toInt ∧ (x2 i).toInt ≤ 40) :
    Stages.factor (F := Ideal) (val_main_v2 (F := Ideal) x0) x1 x2 = val_main_v31 (F := Ideal) x0 x1 x2 := by
  have hrows : ∀ i, -41 ≤ ((Stages.parentRows (F := Ideal) x1 x2) i).toInt ∧ ((Stages.parentRows (F := Ideal) x1 x2) i).toInt ≤ 40 :=
    fun i => hr _
  calc Stages.factor (F := Ideal) (val_main_v2 (F := Ideal) x0) x1 x2
      = Stages.rescale (F := Ideal) (val_main_v2 (F := Ideal) x0)
          (Stages.parentPtps (F := Ideal) (Stages.padded (F := Ideal) (val_main_v2 (F := Ideal) x0)) (Stages.parentRows (F := Ideal) x1 x2)) := rfl
    _ = Stages.rescale (F := Ideal) (val_main_v2 (F := Ideal) x0)
          (Cert.ReferenceIdeal.Stages.parentPtps (F := Ideal) (Stages.padded (F := Ideal) (val_main_v2 (F := Ideal) x0)) (Stages.parentRows (F := Ideal) x1 x2)) :=
        congrArg (Stages.rescale (F := Ideal) (val_main_v2 (F := Ideal) x0)) (Cert.Joint.parentPtps_eq _ _ hrows)
    _ = val_main_v31 (F := Ideal) x0 x1 x2 := rfl

/-- The reference's first result, index by index: the waveform times the factor at its (waveform, channel). -/
theorem ref_scaled (x0 : (⟨S8192x121x40, .f32⟩ : BufTy).Contents (Elt Ideal)) (x1 : (⟨S8192, .i32⟩ : BufTy).Contents (Elt Ideal))
    (x2 : (⟨S384x40x12, .i32⟩ : BufTy).Contents (Elt Ideal)) :
    MulValue.scaled x0 (val_main_v31 (F := Ideal) x0 x1 x2) = val_main_v35 (F := Ideal) x0 x1 x2 := by
  funext i
  rw [val_main_v35_apply, val_main_v34_apply, val_main_v33_apply]
  show FloatOps.mulf (F := Ideal) (φ := FTy.f32) (x0 i) (val_main_v31 (F := Ideal) x0 x1 x2 (MulValue.rowChan i))
    = FloatOps.mulf (F := Ideal) (φ := FTy.f32) (x0 i) (val_main_v31 (F := Ideal) x0 x1 x2 (idx_main_v33 (idx_main_v34 i)))
  refine congrArg (fun y => FloatOps.mulf (F := Ideal) (φ := FTy.f32) (x0 i) (val_main_v31 (F := Ideal) x0 x1 x2 y)) ?_
  funext a
  match a with
  | ⟨0, _⟩ => rfl
  | ⟨1, _⟩ => rfl

variable (m : (ℓ : Loc nD τ sig) → Buf (Elt Ideal) ℓ) (ρ : Dev nD → PrngReg)

/-- The first region leaves the reference's peak-to-peak stage of the launch waveforms, -/
theorem exit_table (c : Dev nD) :
    W1 m ρ c (Proc.devRef .tc main_v0) = val_main_v2 (F := Ideal) (m ((c : Thread nD τ).loc main_arg0)) :=
  (W1_arr m ρ c 1).trans (PtpValue.ptp_array (V0 m ρ) c)
/-- and the two index arrays as launched. -/
theorem exit_arg1 (c : Dev nD) : W1 m ρ c (Proc.devRef .tc main_arg1) = m ((c : Thread nD τ).loc main_arg1) :=
  (W1_of_ne m ρ c main_arg1 (by decide)).trans rfl
theorem exit_arg2 (c : Dev nD) : W1 m ρ c (Proc.devRef .tc main_arg2) = m ((c : Thread nD τ).loc main_arg2) :=
  (W1_of_ne m ρ c main_arg2 (by decide)).trans rfl

/-- The second region finds the waveforms as launched. -/
theorem entry_arg0 (c : Dev nD) : W6 m ρ c (Proc.devRef .tc main_arg0) = m ((c : Thread nD τ).loc main_arg0) :=
  ((W7_arr m ρ c 0).trans (((dat1 (V6 m ρ) c).arrAt_in 0 rfl _).trans (A_eq1 (V6 m ρ) c 0))).symm.trans (W7_main_arg0 m ρ c)

section
variable (c : Dev nD)
  (hr : ∀ i, -41 ≤ (m ((c : Thread nD τ).loc main_arg2) i).toInt ∧ (m ((c : Thread nD τ).loc main_arg2) i).toInt ≤ 40)
include hr

/-- The second region finds the reference's factor stage in its factor buffer. -/
theorem entry_factor : W6 m ρ c (Proc.devRef .tc main_v15)
    = val_main_v31 (F := Ideal) (m ((c : Thread nD τ).loc main_arg0)) (m ((c : Thread nD τ).loc main_arg1)) (m ((c : Thread nD τ).loc main_arg2)) := by
  refine (Stages.entry_v15 m ρ c).trans ?_
  rw [exit_table, exit_arg1, exit_arg2]
  exact factor_eq _ _ _ hr

/-- THE FIRST RESULT: the reference's. -/
theorem result0 : W7 m ρ c (Proc.devRef .tc main_v17)
    = val_main_v35 (F := Ideal) (m ((c : Thread nD τ).loc main_arg0)) (m ((c : Thread nD τ).loc main_arg1)) (m ((c : Thread nD τ).loc main_arg2)) := by
  refine (W7_arr m ρ c 2).trans ((MulValue.mul_array (V6 m ρ) c).trans ?_)
  show MulValue.scaled (W6 m ρ c (Proc.devRef .tc main_arg0)) (W6 m ρ c (Proc.devRef .tc main_v15)) = _
  rw [entry_arg0, entry_factor m ρ c hr]
  exact ref_scaled _ _ _

/-- THE SECOND RESULT: the reference's. -/
theorem result1 : W7 m ρ c (Proc.devRef .tc main_v16)
    = val_main_v32 (F := Ideal) (m ((c : Thread nD τ).loc main_arg0)) (m ((c : Thread nD τ).loc main_arg1)) (m ((c : Thread nD τ).loc main_arg2)) := by
  refine (W7_of_ne m ρ c main_v16 (by decide)).trans ((Stages.entry_v16 m ρ c).trans ?_)
  rw [exit_table, exit_arg1, exit_arg2, factor_eq _ _ _ hr]
  rfl

end

end Cert.KernelIdeal.ResultValue

end
-- ==== Proof.PreDecode.lean ====
/-
  What the precondition says of the table of parent indices: every entry, read as a signed word, lies in [-41, 40],
  a valid position of the 41-wide padded row counted from either end. The printed predicate is the AND of two
  `all`s; the second is an AND-reduction, over every entry, of (entry ≥ -41) AND (entry ≤ 40), and an AND-reduction
  from 1 that is 1 met only 1s.
-/
import proofs.«407962_j59150289600719_2_alg».proof.Pre_finite_inputs
import proofs.«407962_j59150289600719_2_alg».proof.Proof.Gen.Pre_finite_inputs
import Idealize.ShloMosaic.Lib.ReduceAll

noncomputable section

namespace Cert.Pre_finite_inputs.Decode

open Idealize.ShloMosaic Cert.Pre_finite_inputs Cert.Pre_finite_inputs.Facts

instance : Subsingleton S_.Idx := ⟨fun a b => funext fun d => d.elim0⟩

/-- The word -41 and the word 40, read signed. -/
theorem toInt_neg41 : (4294967255#32 : BitVec 32).toInt = -41 := by decide
theorem toInt_40 : (40#32 : BitVec 32).toInt = 40 := by decide

variable {F : FTy → Type} [FloatOps F]

/-- Under the precondition every parent index is in [-41, 40]. -/
theorem parents_in_range (a0 : FVec F S8192x121x40 .f32) (a1 : IVec S8192 32) (a2 : IVec S384x40x12 32)
    (h : fn (F := F) a0 a1 a2 = fun _ => 1#1) (i : S384x40x12.Idx) :
    -41 ≤ (a2 i).toInt ∧ (a2 i).toInt ≤ 40 := by
  have h0 := congrFun h (fun d => d.elim0)
  dsimp only [fn] at h0
  obtain ⟨-, h9⟩ := IntOp.andi_eq_one.1 h0
  have h8 := Host.reduce_andi_all _ _ _ _ _ h9 i
  obtain ⟨hge, hle⟩ := IntOp.andi_eq_one.1 h8
  have hge' : IntOp.cmpi .sge (a2 i) 4294967255#32 = 1#1 := hge
  have hle' : IntOp.cmpi .sle (a2 i) 40#32 = 1#1 := hle
  have g := IntOp.cmpi_sge.1 hge'
  have l := IntOp.cmpi_sle.1 hle'
  rw [toInt_neg41] at g
  rw [toInt_40] at l
  exact ⟨g, l⟩

end Cert.Pre_finite_inputs.Decode

end
-- ==== Proof.lean ====
/-
  The kernel rescales spike waveforms so that no channel's peak-to-peak amplitude exceeds its parents': with
  ptp[n, j] = max over t of w[n, t, j] - min over t of w[n, t, j], padded by a +∞ column, each channel's parents'
  amplitudes are read through the table of parent indices of the waveform's channel, and
  r[n, j] = min (min over the parents of ptp[n, parent] / ptp[n, j], 1); the results are w · r (along time) and ptp · r.
  The kernel computes ptp and the final product in two pipelined regions and the rest on the host, where it reads the
  padded table by a take along a flattened axis that answers NaN out of range; the reference reads it by a gather at
  (row, index) pairs, which clamps. The two reads agree exactly when every parent index is a valid position of the
  41-wide padded row, counted from either end, which is what the precondition states beside finiteness of the waveforms.
  Everything else is one text on both sides, so no law of the extended reals is needed beyond reading a maximum or a
  minimum over time as the same fold whatever the tiling (Proof/PtpValue.lean).

  The three frames are the generated ones (the reference's is its generated run with the results dropped); the idealized
  kernel is the kernel's own text, so there is nothing to preserve; the value claim puts both programs' results at the
  reference's stage functions of the argument arrays (Proof/KernelValue.lean for the kernel's, from the run of
  Proof/KernelRun.lean; the generated run and stages for the reference's).
-/
import proofs.«407962_j59150289600719_2_alg».proof.Defs
import proofs.«407962_j59150289600719_2_alg».proof.Proof.Gen.Kernel
import proofs.«407962_j59150289600719_2_alg».proof.Proof.Gen.Kernel.Skeleton
import proofs.«407962_j59150289600719_2_alg».proof.Proof.Gen.Kernel.Launch
import proofs.«407962_j59150289600719_2_alg».proof.Proof.Gen.Kernel.Points
import proofs.«407962_j59150289600719_2_alg».proof.Proof.Gen.Kernel.Frame
import proofs.«407962_j59150289600719_2_alg».proof.Proof.Gen.KernelIdeal
import proofs.«407962_j59150289600719_2_alg».proof.Proof.Gen.KernelIdeal.Skeleton
import proofs.«407962_j59150289600719_2_alg».proof.Proof.Gen.KernelIdeal.Launch
import proofs.«407962_j59150289600719_2_alg».proof.Proof.Gen.KernelIdeal.Points
import proofs.«407962_j59150289600719_2_alg».proof.Proof.Gen.KernelIdeal.Frame
import proofs.«407962_j59150289600719_2_alg».proof.Proof.Gen.ReferenceIdeal
import proofs.«407962_j59150289600719_2_alg».proof.Proof.Gen.ReferenceIdeal.Run
import proofs.«407962_j59150289600719_2_alg».proof.Proof.Gen.ReferenceIdeal.Read
import proofs.«407962_j59150289600719_2_alg».proof.Proof.Gen.Pre_finite_inputs
import proofs.«407962_j59150289600719_2_alg».proof.Proof.KernelRun
import proofs.«407962_j59150289600719_2_alg».proof.Proof.KernelValue
import proofs.«407962_j59150289600719_2_alg».proof.Proof.PreDecode
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with each result at the reference's stage function of the
    kernel's argument arrays: the kernel by Proof/KernelValue.lean, the parent indices in range by the precondition; the
    reference by its generated run, its arguments rewritten to the kernel's. -/
theorem algebraic : Cert.algebraic_KernelIdeal_ReferenceIdeal := by
  intro m ρ m' ρ' hpre hagree
  have hr : ∀ (c : Dev Cert.KernelIdeal.nD) i,
      -41 ≤ (m ((c.tc : Thread Cert.KernelIdeal.nD Cert.KernelIdeal.τ).loc Cert.KernelIdeal.main_arg2) i).toInt
        ∧ (m ((c.tc : Thread Cert.KernelIdeal.nD Cert.KernelIdeal.τ).loc Cert.KernelIdeal.main_arg2) i).toInt ≤ 40 :=
    fun c i => Cert.Pre_finite_inputs.Decode.parents_in_range _ _ _ (hpre c) i
  refine ⟨fun c => Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => Cert.ReferenceIdeal.Read.val_main_v32 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.ResultValue.result0 m ρ c (hr c)),
        (h c).2.1.trans (Cert.KernelIdeal.ResultValue.result1 m ρ c (hr c)), (h c).2.2⟩)
      (Cert.KernelIdeal.Results.run m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2]
      exact Cert.ReferenceIdeal.Read.val_main_v35_eq _ _ _
    · rw [(hagree c).1, (hagree c).2.1, (hagree c).2.2]
      exact Cert.ReferenceIdeal.Read.val_main_v32_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
